-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : IVec S16x1024x1024 32) (main_arg1 : FVec F S16x1024x1024 .f32) : IVec S_ 1 :=
  let main_v0 : FVec F S16x1024x1024 .f32 := Host.absf main_arg1
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_c_0 : IVec S_ 32 := constantI S_ 32 0#32
  let main_v4 : IVec S16x1024x1024 32 := broadcastInDim S16x1024x1024 ![] bcast_S_S16x1024x1024 main_c_0
  let main_v5 : IVec S16x1024x1024 1 := cmpi .sge main_arg0 main_v4
  let main_c_1 : IVec S_ 32 := constantI S_ 32 512#32
  let main_v6 : IVec S16x1024x1024 32 := broadcastInDim S16x1024x1024 ![] bcast_S_S16x1024x1024 main_c_1
  let main_v7 : IVec S16x1024x1024 1 := cmpi .slt main_arg0 main_v6
  let main_v8 : IVec S16x1024x1024 1 := andi main_v5 main_v7
  let main_c_2 : IVec S_ 1 := constantI S_ 1 1#1
  let main_v9 : IVec S_ 1 := (fun x v => Host.reduce IntOp.andi x v reducesTo_S16x1024x1024_S_d0_1_2 h_S_) main_v8 main_c_2
  let main_v10 : IVec S_ 1 := andi main_v3 main_v9
  main_v10
-- ==== Kernel.lean ====
abbrev S16x1024x1024 : Shape := ⟨3, ![16, 1024, 1024]⟩
abbrev S16384x1024 : Shape := ⟨2, ![16384, 1024]⟩
abbrev S8x512 : Shape := ⟨2, ![8, 512]⟩
abbrev S8x1024 : Shape := ⟨2, ![8, 1024]⟩
abbrev S1x128x1024 : Shape := ⟨3, ![1, 128, 1024]⟩
abbrev S8x1x1024 : Shape := ⟨3, ![8, 1, 1024]⟩
abbrev S8x128x1024 : Shape := ⟨3, ![8, 128, 1024]⟩
abbrev S8x128 : Shape := ⟨2, ![8, 128]⟩
abbrev S_ : Shape := ⟨0, ![]⟩
abbrev S512 : Shape := ⟨1, ![512]⟩
abbrev S1x512 : Shape := ⟨2, ![1, 512]⟩
abbrev S1x1x128 : Shape := ⟨3, ![1, 1, 128]⟩
abbrev S8x1024x1 : Shape := ⟨3, ![8, 1024, 1]⟩
abbrev S8x1024x128 : Shape := ⟨3, ![8, 1024, 128]⟩
abbrev S1x128 : Shape := ⟨2, ![1, 128]⟩

abbrev nBuf : Space → Nat
  | .hbm => 30
  | .vmem => 11
  | .smem => 0
  | _ => 0

abbrev bufTy : (tb : Table) → Fin (tcTables nBuf tb) → BufTy
  | .hbm, ⟨0, _⟩ => ⟨S16x1024x1024, .i32⟩
  | .hbm, ⟨1, _⟩ => ⟨S16x1024x1024, .f32⟩
  | .hbm, ⟨2, _⟩ => ⟨S16384x1024, .i32⟩
  | .hbm, ⟨3, _⟩ => ⟨S16384x1024, .f32⟩
  | .hbm, ⟨4, _⟩ => ⟨S8x512, .f32⟩
  | .hbm, ⟨5, _⟩ => ⟨S8x512, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .i32⟩
  | .hbm, ⟨15, _⟩ => ⟨S_, .f32⟩
  | .hbm, ⟨16, _⟩ => ⟨S512, .f32⟩
  | .hbm, ⟨17, _⟩ => ⟨S512, .i1⟩
  | .hbm, ⟨18, _⟩ => ⟨S_, .f32⟩
  | .hbm, ⟨19, _⟩ => ⟨S512, .f32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S512, .f32⟩
  | .hbm, ⟨27, _⟩ => ⟨S1x512, .f32⟩
  | .hbm, ⟨28, _⟩ => ⟨S16384x1024, .i32⟩
  | .hbm, ⟨29, _⟩ => ⟨S16x1024x1024, .i32⟩
  | .local _ .vmem, ⟨0, _⟩ => ⟨S8x1024, .i32⟩
  | .local _ .vmem, ⟨1, _⟩ => ⟨S8x1024, .i32⟩
  | .local _ .vmem, ⟨2, _⟩ => ⟨S8x1024, .f32⟩
  | .local _ .vmem, ⟨3, _⟩ => ⟨S8x1024, .f32⟩
  | .local _ .vmem, ⟨4, _⟩ => ⟨S8x512, .f32⟩
  | .local _ .vmem, ⟨5, _⟩ => ⟨S8x512, .f32⟩
  | .local _ .vmem, ⟨6, _⟩ => ⟨S8x1024, .i32⟩
  | .local _ .vmem, ⟨7, _⟩ => ⟨S8x1024, .i32⟩
  | .local _ .vmem, ⟨8, _⟩ => ⟨S1x512, .f32⟩
  | .local _ .vmem, ⟨9, _⟩ => ⟨S8x1024, .i32⟩
  | .local _ .vmem, ⟨10, _⟩ => ⟨S8x1024, .i32⟩
  | _, _ => ⟨S16x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![2048], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S16x1024x1024_S16384x1024 : S16x1024x1024.ShapeCasts S16384x1024
  inb_S8x512_S8x512_0_0 : ∀ a, (![0, 0] : Fin 2 → Nat) a + S8x512.size a ≤ S8x512.size a
  h_S8x512 : 0 < S8x512.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  iota_S1x128x1024_d1_w32 : S1x128x1024.Iotas .tc 32 [1]
  shapeCasts_S8x1024_S8x1x1024 : S8x1024.ShapeCasts S8x1x1024
  broadcasts_S8x1x1024_S8x128x1024 : S8x1x1024.Broadcasts S8x128x1024
  broadcasts_S1x128x1024_S8x128x1024 : S1x128x1024.Broadcasts S8x128x1024
  natLt_1_32 : 1 < 32
  shapeCasts_S8x1x1024_S8x1x1024 : S8x1x1024.ShapeCasts S8x1x1024
  reduces_S8x128x1024_S8x128 : S8x128x1024.Reduces [2] S8x128
  inb_S8x512_S8x128_0_0 : ∀ a, (![0, 0] : Fin 2 → Nat) a + S8x128.size a ≤ S8x512.size a
  h_S8x128 : 0 < S8x128.numel
  shapeCasts_S8x128_S8x128 : S8x128.ShapeCasts S8x128
  inb_S8x512_S8x128_0_128 : ∀ a, (![0, 128] : Fin 2 → Nat) a + S8x128.size a ≤ S8x512.size a
  inb_S8x512_S8x128_0_256 : ∀ a, (![0, 256] : Fin 2 → Nat) a + S8x128.size a ≤ S8x512.size a
  inb_S8x512_S8x128_0_384 : ∀ a, (![0, 384] : Fin 2 → Nat) a + S8x128.size a ≤ S8x512.size a
  reducesTo_S8x512_S512_d0 : S8x512.ReducesTo [0] S512
  h_S_ : 0 < S_.numel
  bcast_S_S512 : S_.BroadcastsInDim S512 (![] : Fin 0 → Fin S512.rank)
  shapeCasts_S512_S1x512 : S512.ShapeCasts S1x512
  iota_S1x1x128_d2_w32 : S1x1x128.Iotas .tc 32 [2]
  shapeCasts_S8x1024_S8x1024x1 : S8x1024.ShapeCasts S8x1024x1
  broadcasts_S8x1024x1_S8x1024x128 : S8x1024x1.Broadcasts S8x1024x128
  broadcasts_S1x1x128_S8x1024x128 : S1x1x128.Broadcasts S8x1024x128
  inb_S1x512_S1x128_0_0 : ∀ a, (![0, 0] : Fin 2 → Nat) a + S1x128.size a ≤ S1x512.size a
  h_S1x128 : 0 < S1x128.numel
  shapeCasts_S1x128_S1x128 : S1x128.ShapeCasts S1x128
  shapeCasts_S1x128_S1x1x128 : S1x128.ShapeCasts S1x1x128
  shapeCasts_S1x1x128_S1x1x128 : S1x1x128.ShapeCasts S1x1x128
  reduces_S8x1024x128_S8x1024 : S8x1024x128.Reduces [2] S8x1024
  inb_S1x512_S1x128_0_128 : ∀ a, (![0, 128] : Fin 2 → Nat) a + S1x128.size a ≤ S1x512.size a
  inb_S1x512_S1x128_0_256 : ∀ a, (![0, 256] : Fin 2 → Nat) a + S1x128.size a ≤ S1x512.size a
  inb_S1x512_S1x128_0_384 : ∀ a, (![0, 384] : Fin 2 → Nat) a + S1x128.size a ≤ S1x512.size a
  shapeCasts_S16384x1024_S16x1024x1024 : S16384x1024.ShapeCasts S16x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S16384x1024.size a
  hwx0_0 : ∀ i : grid0.Coords, EltTy.bits .i32 = 32 ∨ (Rect.block (s := S16384x1024) S8x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S16384x1024.size a
  hwx0_1 : ∀ i : grid0.Coords, EltTy.bits .f32 = 32 ∨ (Rect.block (s := S16384x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S16384x1024.size a
  hwx1_0 : ∀ i : grid1.Coords, EltTy.bits .i32 = 32 ∨ (Rect.block (s := S16384x1024) S8x1024.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S16384x1024.size a
  hwx1_2 : ∀ i : grid1.Coords, EltTy.bits .i32 = 32 ∨ (Rect.block (s := S16384x1024) S8x1024.size (cc1_transform_2 i) (hinb1_2 i)).WholeWords (EltTy.packing .i32)

variable [Facts₀]

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S8x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x1024x1024 : Shape := ⟨3, ![16, 1024, 1024]⟩
abbrev S16777216 : Shape := ⟨1, ![16777216]⟩
abbrev S_ : Shape := ⟨0, ![]⟩
abbrev S512 : Shape := ⟨1, ![512]⟩
abbrev S16777216x1 : Shape := ⟨2, ![16777216, 1]⟩
abbrev S16x1024x1024x1 : Shape := ⟨4, ![16, 1024, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x1024x1024, .i32⟩
  | .hbm, ⟨1, _⟩ => ⟨S16x1024x1024, .f32⟩
  | .hbm, ⟨2, _⟩ => ⟨S16777216, .i32⟩
  | .hbm, ⟨3, _⟩ => ⟨S16777216, .f32⟩
  | .hbm, ⟨4, _⟩ => ⟨S_, .f32⟩
  | .hbm, ⟨5, _⟩ => ⟨S512, .f32⟩
  | .hbm, ⟨6, _⟩ => ⟨S16777216x1, .i32⟩
  | .hbm, ⟨7, _⟩ => ⟨S512, .f32⟩
  | .hbm, ⟨8, _⟩ => ⟨S_, .f32⟩
  | .hbm, ⟨9, _⟩ => ⟨S16777216, .f32⟩
  | .hbm, ⟨10, _⟩ => ⟨S_, .f32⟩
  | .hbm, ⟨11, _⟩ => ⟨S512, .f32⟩
  | .hbm, ⟨12, _⟩ => ⟨S16777216x1, .i32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .i32⟩
  | .hbm, ⟨19, _⟩ => ⟨S_, .f32⟩
  | .hbm, ⟨20, _⟩ => ⟨S512, .f32⟩
  | .hbm, ⟨21, _⟩ => ⟨S512, .i1⟩
  | .hbm, ⟨22, _⟩ => ⟨S_, .f32⟩
  | .hbm, ⟨23, _⟩ => ⟨S512, .f32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S16x1024x1024, .i32⟩
  | .hbm, ⟨32, _⟩ => ⟨S16x1024x1024, .i1⟩
  | .hbm, ⟨33, _⟩ => ⟨S_, .i32⟩
  | .hbm, ⟨34, _⟩ => ⟨S16x1024x1024, .i32⟩
  | .hbm, ⟨35, _⟩ => ⟨S16x1024x1024, .i32⟩
  | .hbm, ⟨36, _⟩ => ⟨S16x1024x1024, .i32⟩
  | .hbm, ⟨37, _⟩ => ⟨S16x1024x1024x1, .i32⟩
  | .hbm, ⟨38, _⟩ => ⟨S16x1024x1024, .i1⟩
  | .hbm, ⟨39, _⟩ => ⟨S_, .i32⟩
  | .hbm, ⟨40, _⟩ => ⟨S16x1024x1024, .i32⟩
  | .hbm, ⟨41, _⟩ => ⟨S16x1024x1024, .i32⟩
  | _, _ => ⟨S16x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_call0_v0 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  shapeCasts_S16x1024x1024_S16777216 : S16x1024x1024.ShapeCasts S16777216
  bcast_S_S512 : S_.BroadcastsInDim S512 (![] : Fin 0 → Fin S512.rank)
  bcast_S16777216_S16777216x1_0 : S16777216.BroadcastsInDim S16777216x1 (![0] : Fin 1 → Fin S16777216x1.rank)
  bcast_S_S16777216 : S_.BroadcastsInDim S16777216 (![] : Fin 0 → Fin S16777216.rank)
  bcast_S_S16x1024x1024 : S_.BroadcastsInDim S16x1024x1024 (![] : Fin 0 → Fin S16x1024x1024.rank)
  bcast_S16x1024x1024_S16x1024x1024x1_0_1_2 : S16x1024x1024.BroadcastsInDim S16x1024x1024x1 (![0, 1, 2] : Fin 3 → Fin S16x1024x1024x1.rank)
  scatter_S512_S16777216x1_S16777216_n_0_0_1_wf : ScatterDims.WF S512 S16777216x1 S16777216 [] [0] [0] 1
  gather_S512_S16x1024x1024x1_S16x1024x1024_n_0_n_n_0_3_1_wf : GatherDims.WF S512 S16x1024x1024x1 S16x1024x1024 [] [0] [] [0] [] 3 ![1]

variable [Facts₀]

def scatter_S512_S16777216x1_S16777216_n_0_0_1 : ScatterDims S512 S16777216x1 S16777216 where
  updateWindowDims := []
  insertedWindowDims := [0]
  scatterDimsToOperandDims := [0]
  indexVectorDim := 1
  wf := scatter_S512_S16777216x1_S16777216_n_0_0_1_wf
def gather_S512_S16x1024x1024x1_S16x1024x1024_n_0_n_n_0_3_1 : GatherDims S512 S16x1024x1024x1 S16x1024x1024 where
  offsetDims := []
  collapsedSliceDims := [0]
  operandBatchingDims := []
  startIndicesBatchingDims := []
  startIndexMap := [0]
  indexVectorDim := 3
  sliceSizes := ![1]
  wf := gather_S512_S16x1024x1024x1_S16x1024x1024_n_0_n_n_0_3_1_wf

class Facts : Prop extends Facts₀ where

variable [Facts]
-- ==== Proof.Flags.lean ====
/-
  The chain of host operations both programs apply to the two per-label tables (totals and counts): the mean is the
  total over the count raised to at least one; a label is flagged when its mean is below minus three thousandths or
  above three thousandths, and it is not the background label zero. The three float literals are kept as their words.
-/
import Idealize.ShloMosaic.PureOps.Ideal
import Idealize.ShloMosaic.Lib.ValueIdx

noncomputable section

namespace Cert.Spec

open Idealize.ShloMosaic

/-- The flag of every label, from the table of totals `S` and the table of counts `C`. -/
def flags {F : FTy → Type} [FloatOps F]
    (hb : (⟨0, ![]⟩ : Shape).BroadcastsInDim (⟨1, ![512]⟩ : Shape) (![] : Fin 0 → Fin (⟨1, ![512]⟩ : Shape).rank))
    (S C : FVec F ⟨1, ![512]⟩ .f32) : IVec ⟨1, ![512]⟩ 1 :=
  andi
    (ori
      (cmpf .olt
        (Host.divf S (maximumf C (broadcastInDim ⟨1, ![512]⟩ ![] hb (constant ⟨0, ![]⟩ .f32 0x3F800000#32))))
        (broadcastInDim ⟨1, ![512]⟩ ![] hb (constant ⟨0, ![]⟩ .f32 0xBB449BA6#32)))
      (cmpf .ogt
        (Host.divf S (maximumf C (broadcastInDim ⟨1, ![512]⟩ ![] hb (constant ⟨0, ![]⟩ .f32 0x3F800000#32))))
        (broadcastInDim ⟨1, ![512]⟩ ![] hb (constant ⟨0, ![]⟩ .f32 0x3B449BA6#32))))
    (cmpi .ne (iotaInDim ⟨1, ![512]⟩ 32 0) (broadcastInDim ⟨1, ![512]⟩ ![] hb (constantI ⟨0, ![]⟩ 32 0#32)))

end Cert.Spec

end
-- ==== Proof.KernelValue.lean ====
/-
  The kernel's program between its launch and its return, read boundary by boundary: what each stretch of host
  operations writes as a term of what it finds, and what each region's arrays hold when the next stretch starts.
  The images enter region 0 as 16384 rows; the region's two tables of partial statistics are folded over the eight row
  positions, pass through the chain of flags, and enter region 1 as one row of numbers beside the label rows, which no
  operation in between writes; region 1's result is reshaped back to the image.
-/
import proofs.«408821_j36876589203621_3_alg».proof.Proof.Flags
import proofs.«408821_j36876589203621_3_alg».proof.Proof.Gen.KernelIdeal.Frame
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]

/-! ## The stretches of host operations, from any contents -/

/-- The first stretch writes the label image as rows. -/
theorem ops0_v0 (Wv : Valuation τ sig (Elt F)) : (StableHlo.after hostOps0 Wv (Proc.devRef .tc main_v0) : S16384x1024.Idx → BitVec 32)
    = shapeCast S16384x1024 (Wv (Proc.devRef .tc main_arg0)) shapeCasts_S16x1024x1024_S16384x1024 := by
  after_results
  rfl

/-- The first stretch writes the intensity image as rows. -/
theorem ops0_v1 (Wv : Valuation τ sig (Elt F)) : (StableHlo.after hostOps0 Wv (Proc.devRef .tc main_v1) : S16384x1024.Idx → F .f32)
    = shapeCast S16384x1024 (Wv (Proc.devRef .tc main_arg1)) shapeCasts_S16x1024x1024_S16384x1024 := by
  after_results
  rfl

/-- The second stretch folds the two tables of partial statistics over the row positions, takes the flags and writes
    them as one row of numbers. -/
theorem ops1_v18 (Wv : Valuation τ sig (Elt F)) : (StableHlo.after hostOps1 Wv (Proc.devRef .tc main_v18) : S1x512.Idx → F .f32)
    = shapeCast S1x512 (uitofp .f32 (Cert.Spec.flags bcast_S_S512
        (Host.reduceAdd (Wv (Proc.devRef .tc main_v2_0)) (constant S_ .f32 0x00000000#32) reducesTo_S8x512_S512_d0 h_S_)
        (Host.reduceAdd (Wv (Proc.devRef .tc main_v2_1)) (constant S_ .f32 0x00000000#32) reducesTo_S8x512_S512_d0 h_S_)))
      shapeCasts_S512_S1x512 := by
  after_results
  rfl

/-- The second stretch does not write the label rows. -/
theorem ops1_v0 (Wv : Valuation τ sig (Elt F)) :
    StableHlo.after hostOps1 Wv (Proc.devRef .tc main_v0) = Wv (Proc.devRef .tc main_v0) :=
  StableHlo.after_of_forall_not_mem (b := Proc.devRef .tc main_v0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The last stretch reshapes the filtered rows back to the image. -/
theorem ops2_v20 (Wv : Valuation τ sig (Elt F)) : (StableHlo.after hostOps2 Wv (Proc.devRef .tc main_v20) : S16x1024x1024.Idx → BitVec 32)
    = shapeCast S16x1024x1024 (Wv (Proc.devRef .tc main_v19)) shapeCasts_S16384x1024_S16x1024x1024 := by
  after_results
  rfl

/-! ## The contents at the boundaries -/

variable (m : (ℓ : Loc nD τ sig) → Buf (Elt F) ℓ) (ρ : Dev nD → PrngReg)

/-- Region 0 is entered with the label image as rows … -/
theorem V1_v0 (c : Dev nD) : (V1 m ρ c main_v0 : S16384x1024.Idx → BitVec 32)
    = shapeCast S16384x1024 (m ((c : Thread nD τ).loc main_arg0)) shapeCasts_S16x1024x1024_S16384x1024 :=
  ops0_v0 (W0 m ρ c)

/-- … and the intensity image as rows. -/
theorem V1_v1 (c : Dev nD) : (V1 m ρ c main_v1 : S16384x1024.Idx → F .f32)
    = shapeCast S16384x1024 (m ((c : Thread nD τ).loc main_arg1)) shapeCasts_S16x1024x1024_S16384x1024 :=
  ops0_v1 (W0 m ρ c)

/-- Region 0 only reads the label rows: they leave it as they entered. -/
theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

/-- Region 1 is entered with the label rows of the launch. -/
theorem V3_v0 (c : Dev nD) : V3 m ρ c main_v0 = V1 m ρ c main_v0 :=
  (ops1_v0 (W2 m ρ c)).trans (W2_v0 m ρ c)

/-- Region 1 is entered with the flags, as one row of numbers, of the two tables region 0 left. -/
theorem V3_v18 (c : Dev nD) : (V3 m ρ c main_v18 : S1x512.Idx → F .f32)
    = shapeCast S1x512 (uitofp .f32 (Cert.Spec.flags bcast_S_S512
        (Host.reduceAdd ((dat0 (V1 m ρ) c).arrAt 2 cfg0.N) (constant S_ .f32 0x00000000#32) reducesTo_S8x512_S512_d0 h_S_)
        (Host.reduceAdd ((dat0 (V1 m ρ) c).arrAt 3 cfg0.N) (constant S_ .f32 0x00000000#32) reducesTo_S8x512_S512_d0 h_S_)))
      shapeCasts_S512_S1x512 := by
  refine (ops1_v18 (W2 m ρ c)).trans ?_
  rw [show W2 m ρ c (Proc.devRef .tc main_v2_0) = (dat0 (V1 m ρ) c).arrAt 2 cfg0.N from W2_arr m ρ c 2,
    show W2 m ρ c (Proc.devRef .tc main_v2_1) = (dat0 (V1 m ρ) c).arrAt 3 cfg0.N from W2_arr m ρ c 3]

/-- The result buffer at the return: region 1's result array, reshaped to the image. -/
theorem W5_v20 (c : Dev nD) : (W5 m ρ c (Proc.devRef .tc main_v20) : S16x1024x1024.Idx → BitVec 32)
    = shapeCast S16x1024x1024 ((dat1 (V3 m ρ) c).arrAt 2 cfg1.N) shapeCasts_S16384x1024_S16x1024x1024 := by
  refine (ops2_v20 (W4 m ρ c)).trans ?_
  rw [show W4 m ρ c (Proc.devRef .tc main_v19) = (dat1 (V3 m ρ) c).arrAt 2 cfg1.N from W4_arr m ρ c 2]

end Cert.KernelIdeal.KValue

end
-- ==== Proof.Spec.lean ====
/-
  The mathematics both programs compute, stated once over literal shapes and explicit coordinates.

  A label image `lab` (32-bit words) and an intensity image `x` (extended reals) over the same pixels.
  For a label `l < 512` the statistics are the per-label total `∑ pixels with label l, x` and the per-label pixel
  count; both programs then apply the same chain of host operations to these two tables to get a one-bit flag per
  label, and replace by zero every pixel whose label's flag is set.

  The kernel reaches the totals through a one-hot comparison: the indicator `ind w l` (one when the word `w` is
  the label `l`, zero otherwise) multiplies the intensity and is summed along a row, block by block of eight rows.
-/
import Idealize.ShloMosaic.PureOps.Ideal
import Idealize.ShloMosaic.Lib.ValueIdx

noncomputable section

open scoped BigOperators

namespace Cert.Spec

open Idealize.ShloMosaic Idealize.ShloMosaic.ValueIdx

/-- The images, as sixteen planes of 1024 by 1024 pixels. -/
abbrev Img3 : Shape := ⟨3, ![16, 1024, 1024]⟩
/-- The images, as 16384 rows of 1024 pixels. -/
abbrev Img2 : Shape := ⟨2, ![16384, 1024]⟩
/-- The images, flat. -/
abbrev Img1 : Shape := ⟨1, ![16777216]⟩
/-- A block of eight rows. -/
abbrev Blk : Shape := ⟨2, ![8, 1024]⟩
/-- The table of partial statistics: one row per position of a row inside its block, one column per label. -/
abbrev Part : Shape := ⟨2, ![8, 512]⟩
/-- A table with one entry per label. -/
abbrev Tab : Shape := ⟨1, ![512]⟩
/-- The same as one row. -/
abbrev TabRow : Shape := ⟨2, ![1, 512]⟩

/-- The indicator of "the word `w` is the label `l`", as an extended real. -/
def ind (w : BitVec 32) (l : Nat) : EReal := if w = BitVec.ofNat 32 l then 1 else 0

/-- What one block of eight rows adds to the partial total of label `l` at row position `b`: the intensities of row
    `b` of the block at the pixels labelled `l`. -/
def partSum (lb : Blk.Idx → BitVec 32) (xb : Blk.Idx → EReal) (b : Fin 8) (l : Fin 512) : EReal :=
  ∑ cc : Fin 1024, ind (lb (ix2 b cc)) l.val * xb (ix2 b cc)

/-- What one block adds to the partial count of label `l` at row position `b`: the number of pixels of row `b`
    labelled `l`. -/
def partCnt (lb : Blk.Idx → BitVec 32) (b : Fin 8) (l : Fin 512) : EReal :=
  ∑ cc : Fin 1024, ind (lb (ix2 b cc)) l.val

/-- Row `8 t + b` of the image: the row at position `b` of block `t`. -/
abbrev rowOf (t : Fin 2048) (b : Fin 8) : Fin 16384 := ⟨8 * t.val + b.val, by have := t.isLt; have := b.isLt; omega⟩

/-- The partial total of label `l` at row position `b` over all 2048 blocks. -/
def rowsSum (lab : Img2.Idx → BitVec 32) (x : Img2.Idx → EReal) (b : Fin 8) (l : Fin 512) : EReal :=
  ∑ t : Fin 2048, ∑ cc : Fin 1024, ind (lab (ix2 (rowOf t b) cc)) l.val * x (ix2 (rowOf t b) cc)

/-- The partial count of label `l` at row position `b` over all 2048 blocks. -/
def rowsCnt (lab : Img2.Idx → BitVec 32) (b : Fin 8) (l : Fin 512) : EReal :=
  ∑ t : Fin 2048, ∑ cc : Fin 1024, ind (lab (ix2 (rowOf t b) cc)) l.val

/-- The total of label `l`: the intensities of all pixels labelled `l`. -/
def totSum {s : Shape} (lab : s.Idx → BitVec 32) (x : s.Idx → EReal) (l : Nat) : EReal :=
  ∑ i : s.Idx, ind (lab i) l * x i

/-- The count of label `l`: the number of pixels labelled `l`. -/
def totCnt {s : Shape} (lab : s.Idx → BitVec 32) (l : Nat) : EReal :=
  ∑ i : s.Idx, ind (lab i) l

/-- The kernel's filter on one pixel: the one-hot product of the pixel's label with a table `tbl` of flags stored as
    numbers, summed over the labels and compared with one half, selects zero or the label. -/
def selF (tbl : TabRow.Idx → EReal) (w : BitVec 32) : BitVec 32 :=
  Scalar.select (FloatOps.cmpf (F := Ideal) .ogt (∑ l : Fin 512, ind w l.val * tbl (ix2 (0 : Fin 1) l))
    (Ideal.ofBits .f32 0x3F000000#32)) 0#32 w

/-- The filter on one pixel through a table of one-bit flags: the flag of the pixel's label selects zero or the label
    (a label outside the table reads the nearest entry, and never occurs under the stated range of labels). -/
def selB (bd : Tab.Idx → BitVec 1) (w : BitVec 32) : BitVec 32 :=
  Scalar.select (bd (ix1 (⟨min w.toInt.toNat 511, by omega⟩ : Fin 512))) 0#32 w

end Cert.Spec

end
-- ==== Proof.StatsSum.lean ====
import proofs.«408821_j36876589203621_3_alg».proof.Proof.Spec
import proofs.«408821_j36876589203621_3_alg».proof.Proof.Gen.KernelIdeal.Frame
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsSum

open Cert.KernelIdeal Cert.KernelIdeal.Gen

/-!
  The table of partial totals after one block. The body updates the table in four column slices of 128 labels: each
  slice is read, the row sums of the one-hot plane of its 128 labels times the intensities are added, and the slice is
  written back. Read at an entry `(b, l)`, with `l = k + o` in the slice at offset `o`, the update adds
  `∑ cc, ind (label b cc) l * x b cc`, which is the block's contribution `partSum` at `(b, l)`. At the first grid point
  the table is first filled with zero, so every slice read gives zero and the contribution is left alone.
-/

/-- A comparison bit, zero-extended and read as a signed integer, is the indicator of the equality: one when the two
    words are equal, zero otherwise. -/
theorem sitofp_cmpi_eq (w w' : BitVec 32) :
    (FloatOps.sitofp (F := Ideal) .f32 ((IntOp.cmpi .eq w w').setWidth 32) : EReal) = if w = w' then 1 else 0 := by
  show (((((IntOp.cmpi .eq w w').setWidth 32).toInt : ℤ) : ℝ) : EReal) = _
  by_cases h : w = w'
  · rw [if_pos h]; subst h
    have e : IntOp.cmpi .eq w w = 1#1 := by simp [IntOp.cmpi]
    rw [e, show ((1#1 : BitVec 1).setWidth 32).toInt = 1 from by decide]; norm_num
  · rw [if_neg h]
    have e : IntOp.cmpi .eq w w' = 0#1 := by
      show BitVec.ofBool (w == w') = 0#1
      rw [beq_eq_false_iff_ne.mpr h]; rfl
    rw [e, show ((0#1 : BitVec 1).setWidth 32).toInt = 0 from by decide]; norm_num

/-- The one-hot plane of a chunk of 128 labels starting at `n`: at row `b`, lane `k`, column `cc` it is the indicator
    that the word at `(b, cc)` is the label `k + n`. -/
theorem onehot_apply (v : IVec S8x1024 32) (off : BitVec 32) (n : Nat) (hoff : off = BitVec.ofNat 32 n)
    (hi : S1x128x1024.Iotas .tc 32 [1]) (hs : S8x1024.ShapeCasts S8x1x1024)
    (hb1 : S8x1x1024.Broadcasts S8x128x1024) (hb2 : S1x128x1024.Broadcasts S8x128x1024) (hlt : 1 < 32)
    (b : Fin 8) (k : Fin 128) (cc : Fin 1024) :
    (sitofp (F := Ideal) .f32 (extui 32 (cmpi .eq (broadcastTo S8x128x1024 (shapeCast S8x1x1024 v hs) hb1)
        (broadcastTo S8x128x1024 (addi (iota .tc S1x128x1024 32 [1] hi) (broadcast S1x128x1024 off)) hb2)) hlt)) (ix3 b k cc)
      = Cert.Spec.ind (v (ix2 b cc)) (k.val + n) := by
  show FloatOps.sitofp (F := Ideal) .f32 ((IntOp.cmpi .eq (broadcastTo S8x128x1024 (shapeCast S8x1x1024 v hs) hb1 (ix3 b k cc))
        (broadcastTo S8x128x1024 (addi (iota .tc S1x128x1024 32 [1] hi) (broadcast S1x128x1024 off)) hb2 (ix3 b k cc))).setWidth 32) = _
  rw [broadcastTo_apply _ hb1 (ix3 b k cc) (ix3 b (0 : Fin 1) cc) (fun a => match a with | ⟨0, _⟩ => rfl | ⟨1, _⟩ => rfl | ⟨2, _⟩ => rfl),
    broadcastTo_apply _ hb2 (ix3 b k cc) (ix3 (0 : Fin 1) k cc) (fun a => match a with | ⟨0, _⟩ => rfl | ⟨1, _⟩ => rfl | ⟨2, _⟩ => rfl),
    shapeCast_apply v hs (ix3 b (0 : Fin 1) cc) (ix2 b cc) (by rw [Shape.rowMajor_val_two, Shape.rowMajor_val_three]; show b.val * 1024 + cc.val = (b.val * 1 + 0) * 1024 + cc.val; omega),
    sitofp_cmpi_eq]
  show _ = if v (ix2 b cc) = BitVec.ofNat 32 (k.val + n) then (1 : EReal) else 0
  have e : addi (iota .tc S1x128x1024 32 [1] hi) (broadcast S1x128x1024 off) (ix3 (0 : Fin 1) k cc) = BitVec.ofNat 32 (k.val + n) := by
    show iota .tc S1x128x1024 32 [1] hi (ix3 (0 : Fin 1) k cc) + off = _
    rw [iota_single_apply, hoff]
    show BitVec.ofNat 32 k.val + BitVec.ofNat 32 n = _
    rw [← BitVec.ofNat_add]
  rw [e]

/-- One chunk's update of the table of partial totals at row `b`, lane `k`: the stored entry plus the row's sum, over the
    1024 columns, of the one-hot plane times the intensities. -/
theorem chunk_apply (oh : FVec Ideal S8x128x1024 .f32) (v6 : FVec Ideal S8x1024 .f32) (acc : FVec Ideal S8x128 .f32)
    (f : Fin 8 → Fin 128 → Fin 1024 → EReal) (hoh : ∀ b k cc, oh (ix3 b k cc) = f b k cc)
    (hs1 : S8x1024.ShapeCasts S8x1x1024) (hb : S8x1x1024.Broadcasts S8x128x1024)
    (hr : S8x128x1024.Reduces [2] S8x128) (hφ : FKind.Formats .f32) (hacc : (0x00000000#32 : BitVec 32) = FKind.add.neutral .f32 hφ)
    (b : Fin 8) (k : Fin 128) :
    addf acc (multiReduction .add [2] S8x128
        (mulf oh (broadcastTo S8x128x1024 (shapeCast S8x1x1024 v6 hs1) hb)) 0x00000000#32 hr hφ hacc) (ix2 b k)
      = acc (ix2 b k) + ∑ cc : Fin 1024, f b k cc * v6 (ix2 b cc) := by
  rw [addf_apply]
  refine congrArg (acc (ix2 b k) + ·) ?_
  refine (Ideal.multiReduction_add_single _ 0x00000000#32 hr hφ hacc (ix2 b k)).trans ?_
  show ∑ cc : Fin 1024, mulf oh (broadcastTo S8x128x1024 (shapeCast S8x1x1024 v6 hs1) hb) (hr.lift (ix2 b k) cc) = _
  refine Finset.sum_congr rfl fun cc _ => ?_
  have el : hr.lift (ix2 b k) cc = ix3 b k cc := funext fun a => Fin.ext (match a with | ⟨0, _⟩ => rfl | ⟨1, _⟩ => rfl | ⟨2, _⟩ => rfl)
  rw [el, mulf_apply, hoh,
    broadcastTo_apply _ hb (ix3 b k cc) (ix3 b (0 : Fin 1) cc) (fun a => match a with | ⟨0, _⟩ => rfl | ⟨1, _⟩ => rfl | ⟨2, _⟩ => rfl),
    shapeCast_apply v6 hs1 (ix3 b (0 : Fin 1) cc) (ix2 b cc) (by rw [Shape.rowMajor_val_two, Shape.rowMajor_val_three]; show b.val * 1024 + cc.val = (b.val * 1 + 0) * 1024 + cc.val; omega)]

/-- The update of the labels 0 to 127. -/
theorem pay9_apply (v3 : Vec Ideal S8x1024 .i32) (v5 : Vec Ideal S8x1024 .f32) (v22 : Vec Ideal S8x128 .f32) (b : Fin 8) (k : Fin 128) :
    k0_pay9 (F := Ideal) v3 v5 v22 (ix2 b k)
      = v22 (ix2 b k) + ∑ cc : Fin 1024, Cert.Spec.ind (v3 (ix2 b cc)) (k.val + 0) * v5 (ix2 b cc) := by
  unfold k0_pay9 k0_pay8 k0_pay7 k0_pay6
  simp only [shapeCast_self]
  exact chunk_apply _ v5 v22 _ (fun b k cc => onehot_apply v3 0#32 0 rfl _ _ _ _ _ b k cc) _ _ _ _ _ b k

/-- The update of the labels 128 to 255. -/
theorem pay13_apply (v3 : Vec Ideal S8x1024 .i32) (v5 : Vec Ideal S8x1024 .f32) (v45 : Vec Ideal S8x128 .f32) (b : Fin 8) (k : Fin 128) :
    k0_pay13 (F := Ideal) (k0_pay7 v5) (k0_pay11 v3) v45 (ix2 b k)
      = v45 (ix2 b k) + ∑ cc : Fin 1024, Cert.Spec.ind (v3 (ix2 b cc)) (k.val + 128) * v5 (ix2 b cc) := by
  unfold k0_pay13 k0_pay12 k0_pay11 k0_pay7 k0_pay6
  simp only [shapeCast_self]
  exact chunk_apply _ v5 v45 _ (fun b k cc => onehot_apply v3 128#32 128 rfl _ _ _ _ _ b k cc) _ _ _ _ _ b k

/-- The update of the labels 256 to 383. -/
theorem pay16_apply (v3 : Vec Ideal S8x1024 .i32) (v5 : Vec Ideal S8x1024 .f32) (v68 : Vec Ideal S8x128 .f32) (b : Fin 8) (k : Fin 128) :
    k0_pay16 (F := Ideal) (k0_pay6 v3) (k0_pay7 v5) v68 (ix2 b k)
      = v68 (ix2 b k) + ∑ cc : Fin 1024, Cert.Spec.ind (v3 (ix2 b cc)) (k.val + 256) * v5 (ix2 b cc) := by
  unfold k0_pay16 k0_pay15 k0_pay7 k0_pay6
  simp only [shapeCast_self]
  exact chunk_apply _ v5 v68 _ (fun b k cc => onehot_apply v3 256#32 256 rfl _ _ _ _ _ b k cc) _ _ _ _ _ b k

/-- The update of the labels 384 to 511. -/
theorem pay2_apply (v3 : Vec Ideal S8x1024 .i32) (v5 : Vec Ideal S8x1024 .f32) (v91 : Vec Ideal S8x128 .f32) (b : Fin 8) (k : Fin 128) :
    k0_pay2 (F := Ideal) (k0_pay6 v3) (k0_pay7 v5) v91 (ix2 b k)
      = v91 (ix2 b k) + ∑ cc : Fin 1024, Cert.Spec.ind (v3 (ix2 b cc)) (k.val + 384) * v5 (ix2 b cc) := by
  unfold k0_pay2 k0_pay1 k0_pay7 k0_pay6
  simp only [shapeCast_self]
  exact chunk_apply _ v5 v91 _ (fun b k cc => onehot_apply v3 384#32 384 rfl _ _ _ _ _ b k cc) _ _ _ _ _ b k

/-- The zero offsets of a whole block, however spelt. -/
theorem hz2 : (![0, 0] : Fin 2 → Nat) = fun _ => 0 := funext fun a => by fin_cases a <;> rfl

/-- A column slice of width 128 at offset `o` of the table sends its entry `(b, k)` to the table's entry `(b, k + o)`. -/
theorem emb_slice (o : Nat) (inb : ∀ a, (![0, o] : Fin 2 → Nat) a + (![8, 128] : Fin 2 → Nat) a ≤ S8x512.size a)
    (b : Fin 8) (k : Fin 128) (h : k.val + o < 512) :
    (Rect.unit (s := S8x512) ![0, o] ![8, 128] inb).emb (ix2 b k) = ix2 b (⟨k.val + o, h⟩ : Fin 512) :=
  Shape.idx_ext₂ (by rw [Rect.emb_apply]; show 0 + 1 * b.val = b.val; omega)
    (by rw [Rect.emb_apply]; show o + 1 * k.val = k.val + o; omega)

/-- What the table of partial totals holds after a block, in terms of what it held before. -/
def G (x0 : Vec Ideal S8x1024 .i32) (x1 : Vec Ideal S8x1024 .f32) (xo2 : Vec Ideal S8x512 .f32) : Vec Ideal S8x512 .f32 :=
  fun j => xo2 j + Cert.Spec.partSum x0 x1 (j 0) (j 1)

/-- A slice store whose payload adds, to the slice of the old table, the chunk's one-hot sums, writes the new table's slice. -/
theorem piece_ok (x0 : Vec Ideal S8x1024 .i32) (x1 : Vec Ideal S8x1024 .f32) (xo2 : Vec Ideal S8x512 .f32) (o : Nat)
    (inb : ∀ a, (![0, o] : Fin 2 → Nat) a + (![8, 128] : Fin 2 → Nat) a ≤ S8x512.size a)
    (pay : Vec Ideal S8x128 .f32 → Vec Ideal S8x128 .f32)
    (hpay : ∀ v b k, pay v (ix2 b k) = v (ix2 b k) + ∑ cc : Fin 1024, Cert.Spec.ind (x0 (ix2 b cc)) (k.val + o) * x1 (ix2 b cc))
    (ho : o + 128 ≤ 512) (x : (Rect.unit (s := S8x512) ![0, o] ![8, 128] inb).shape.Idx) :
    pay (View.ld xo2 (Rect.unit (s := S8x512) ![0, o] ![8, 128] inb)) x
      = G x0 x1 xo2 ((Rect.unit (s := S8x512) ![0, o] ![8, 128] inb).emb x) := by
  obtain ⟨b, k, rfl⟩ : ∃ (b : Fin 8) (k : Fin 128), x = ix2 b k := ⟨x 0, x 1, eq_ix2 x⟩
  have hk : k.val + o < 512 := by have := k.isLt; omega
  rw [hpay, emb_slice o inb b k hk]
  show xo2 ((Rect.unit (s := S8x512) ![0, o] ![8, 128] inb).emb (ix2 b k)) + _ = _
  rw [emb_slice o inb b k hk]
  rfl

/-- At every later grid point the body adds the block's contribution to what the table held. -/
theorem out_B_sum (c : Dev nD) (i : grid0.Coords) (a1 : Memref sig .tc .vmem S8x1024 .i32) (h1 : a1.IsWhole)
    (a2 : Memref sig .tc .vmem S8x1024 .f32) (h2 : a2.IsWhole) (a3 : Memref sig .tc .vmem S8x512 .f32) (h3 : a3.IsWhole)
    (a4 : Memref sig .tc .vmem S8x512 .f32) (h4 : a4.IsWhole) (hc : ¬cond0_0 i)
    (x0 : Vec Ideal S8x1024 .i32) (x1 : Vec Ideal S8x1024 .f32) (xo2 xo3 : Vec Ideal S8x512 .f32) :
    out0_B_2 (F := Ideal) c i a1 h1 a2 h2 a3 h3 a4 h4 hc x0 x1 xo2 xo3
      = fun j => xo2 j + Cert.Spec.partSum x0 x1 (j 0) (j 1) := by
  have hcov := cover0_B_2 c i a1 h1 a2 h2 a3 h3 a4 h4 hc x0 x1 xo2 xo3
  unfold out0_B_2
  rw [View.read_writes_eq_canon _ _ _ hcov]
  funext j
  refine View.canon_apply_of_pieces (G x0 x1 xo2) _ ?_ j (hcov j)
  clear hcov
  unfold kernelRun0_B
  dsimp only
  sl_unfold_words
  simp only [View.readAt_eq_ld, h1.read_unread, h2.read_unread, h3.read_unread, View.ld_unit_zero (S := S8x1024) hz2]
  rw [List.forall_mem_cons, List.forall_mem_cons, List.forall_mem_cons, List.forall_mem_singleton]
  exact ⟨piece_ok x0 x1 xo2 384 _ (fun v => k0_pay2 (k0_pay6 x0) (k0_pay7 x1) v) (fun v b k => pay2_apply x0 x1 v b k) (by omega),
    piece_ok x0 x1 xo2 256 _ (fun v => k0_pay16 (k0_pay6 x0) (k0_pay7 x1) v) (fun v b k => pay16_apply x0 x1 v b k) (by omega),
    piece_ok x0 x1 xo2 128 _ (fun v => k0_pay13 (k0_pay7 x1) (k0_pay11 x0) v) (fun v b k => pay13_apply x0 x1 v b k) (by omega),
    piece_ok x0 x1 xo2 0 _ (fun v => k0_pay9 x0 x1 v) (fun v b k => pay9_apply x0 x1 v b k) (by omega)⟩

/-- A slice store at another column offset does not touch the entry `(b, l)`. -/
theorem canon_skip (o' : Nat) (inb' : ∀ a, (![0, o'] : Fin 2 → Nat) a + (![8, 128] : Fin 2 → Nat) a ≤ S8x512.size a)
    (w : Vec Ideal S8x128 .f32) (L : List (View.Piece (Elt Ideal) S8x512 .f32)) (b : Fin 8) (l : Fin 512)
    (h : l.val < o' ∨ o' + 128 ≤ l.val) :
    View.canon ((⟨Rect.unit (s := S8x512) ![0, o'] ![8, 128] inb', w⟩ : View.Piece (Elt Ideal) S8x512 .f32) :: L) (ix2 b l)
      = View.canon L (ix2 b l) :=
  View.canon_cons_of_not_mem _ L (by
    rw [Rect.mem_set_unit]; intro hm
    have h1 : o' ≤ l.val ∧ l.val < o' + 128 := hm 1
    omega)

/-- The last slice store at column offset `o` leaves its payload at the entry `(b, k + o)`. -/
theorem canon_hit (o : Nat) (inb : ∀ a, (![0, o] : Fin 2 → Nat) a + (![8, 128] : Fin 2 → Nat) a ≤ S8x512.size a)
    (w : Vec Ideal S8x128 .f32) (L : List (View.Piece (Elt Ideal) S8x512 .f32)) (b : Fin 8) (k : Fin 128) (h : k.val + o < 512) :
    View.canon ((⟨Rect.unit (s := S8x512) ![0, o] ![8, 128] inb, w⟩ : View.Piece (Elt Ideal) S8x512 .f32) :: L) (ix2 b (⟨k.val + o, h⟩ : Fin 512))
      = w (ix2 b k) := by
  rw [← emb_slice o inb b k h]; exact View.canon_cons_emb (Rect.unit (s := S8x512) ![0, o] ![8, 128] inb) w L (ix2 b k)

/-- The fill of the whole table with the zero word leaves zero everywhere. -/
theorem canon_fill (inbw : ∀ a, (![0, 0] : Fin 2 → Nat) a + S8x512.size a ≤ S8x512.size a) (y : S8x512.Idx) :
    View.canon [(⟨Rect.unit (s := S8x512) ![0, 0] S8x512.size inbw, k0_pay4 (F := Ideal)⟩ : View.Piece (Elt Ideal) S8x512 .f32)] y = 0 :=
by
  rw [View.canon_unit_zero (S := S8x512) hz2 inbw]
  unfold k0_pay4
  show Ideal.ofBits .f32 0x00000000#32 = 0
  exact Ideal.ofBits_zero_f32

/-- A load of the slice at column offset `o` after a list of stores reads, at `(b, k)`, what they leave at `(b, k + o)`. -/
theorem readCov_slice (v : View sig .tc .vmem S8x512 .f32) (L : List (View.Piece (Elt Ideal) S8x512 .f32)) (o : Nat)
    (inb : ∀ a, (![0, o] : Fin 2 → Nat) a + (![8, 128] : Fin 2 → Nat) a ≤ S8x512.size a) (b : Fin 8) (k : Fin 128) (h : k.val + o < 512) :
    v.readCov L (Rect.unit (s := S8x512) ![0, o] ![8, 128] inb).toLoadRect (ix2 b k) = View.canon L (ix2 b (⟨k.val + o, h⟩ : Fin 512)) := by
  rw [View.readCov_eq_canon']
  show View.canon L ((Rect.unit (s := S8x512) ![0, o] ![8, 128] inb).emb (ix2 b k)) = _
  rw [emb_slice o inb b k h]

/-- At the first grid point the body clears the table of partial totals and then adds the block's contribution:
    what it leaves is that contribution alone. -/
theorem out_A_sum (c : Dev nD) (i : grid0.Coords) (a1 : Memref sig .tc .vmem S8x1024 .i32) (h1 : a1.IsWhole)
    (a2 : Memref sig .tc .vmem S8x1024 .f32) (h2 : a2.IsWhole) (a3 : Memref sig .tc .vmem S8x512 .f32) (h3 : a3.IsWhole)
    (a4 : Memref sig .tc .vmem S8x512 .f32) (h4 : a4.IsWhole) (hc : cond0_0 i)
    (x0 : Vec Ideal S8x1024 .i32) (x1 : Vec Ideal S8x1024 .f32) :
    out0_A_2 (F := Ideal) c i a1 h1 a2 h2 a3 h3 a4 h4 hc x0 x1 = fun j => Cert.Spec.partSum x0 x1 (j 0) (j 1) := by
  have hcov := cover0_A_2 c i a1 h1 a2 h2 a3 h3 a4 h4 hc x0 x1
  unfold out0_A_2
  rw [View.read_writes_eq_canon _ _ _ hcov]
  clear hcov
  unfold kernelRun0_A
  dsimp only
  sl_unfold_words
  simp only [View.readAt_eq_ld, h1.read_unread, h2.read_unread, View.ld_unit_zero (S := S8x1024) hz2]
  funext j
  obtain ⟨b, l, rfl⟩ : ∃ (b : Fin 8) (l : Fin 512), j = ix2 b l := ⟨j 0, j 1, eq_ix2 j⟩
  show _ = Cert.Spec.partSum x0 x1 b l
  have hl := l.isLt
  by_cases c3 : 384 ≤ l.val
  · obtain ⟨k, hk, rfl⟩ : ∃ (k : Fin 128) (hk : k.val + 384 < 512), l = ⟨k.val + 384, hk⟩ :=
      ⟨⟨l.val - 384, by omega⟩, by dsimp only; omega, Fin.ext (by dsimp only; omega)⟩
    rw [canon_hit 384 _ _ _ b k hk, pay2_apply, readCov_slice _ _ 384 _ b k hk,
      canon_skip 256 _ _ _ b _ (Or.inr (by dsimp only; omega)), canon_skip 128 _ _ _ b _ (Or.inr (by dsimp only; omega)),
      canon_skip 0 _ _ _ b _ (Or.inr (by dsimp only; omega)), canon_fill, zero_add]
    rfl
  by_cases c2 : 256 ≤ l.val
  · obtain ⟨k, hk, rfl⟩ : ∃ (k : Fin 128) (hk : k.val + 256 < 512), l = ⟨k.val + 256, hk⟩ :=
      ⟨⟨l.val - 256, by omega⟩, by dsimp only; omega, Fin.ext (by dsimp only; omega)⟩
    rw [canon_skip 384 _ _ _ b _ (Or.inl (by dsimp only; omega)),
      canon_hit 256 _ _ _ b k hk, pay16_apply, readCov_slice _ _ 256 _ b k hk,
      canon_skip 128 _ _ _ b _ (Or.inr (by dsimp only; omega)),
      canon_skip 0 _ _ _ b _ (Or.inr (by dsimp only; omega)), canon_fill, zero_add]
    rfl
  by_cases c1 : 128 ≤ l.val
  · obtain ⟨k, hk, rfl⟩ : ∃ (k : Fin 128) (hk : k.val + 128 < 512), l = ⟨k.val + 128, hk⟩ :=
      ⟨⟨l.val - 128, by omega⟩, by dsimp only; omega, Fin.ext (by dsimp only; omega)⟩
    rw [canon_skip 384 _ _ _ b _ (Or.inl (by dsimp only; omega)), canon_skip 256 _ _ _ b _ (Or.inl (by dsimp only; omega)),
      canon_hit 128 _ _ _ b k hk, pay13_apply, readCov_slice _ _ 128 _ b k hk,
      canon_skip 0 _ _ _ b _ (Or.inr (by dsimp only; omega)), canon_fill, zero_add]
    rfl
  · obtain ⟨k, hk, rfl⟩ : ∃ (k : Fin 128) (hk : k.val + 0 < 512), l = ⟨k.val + 0, hk⟩ :=
      ⟨⟨l.val, by omega⟩, by dsimp only; omega, Fin.ext (by show l.val = l.val + 0; omega)⟩
    rw [canon_skip 384 _ _ _ b _ (Or.inl (by dsimp only; omega)), canon_skip 256 _ _ _ b _ (Or.inl (by dsimp only; omega)),
      canon_skip 128 _ _ _ b _ (Or.inl (by dsimp only; omega)),
      canon_hit 0 _ _ _ b k hk, pay9_apply, readCov_slice _ _ 0 _ b k hk, canon_fill, zero_add]
    rfl

end Cert.KernelIdeal.StatsSum

end
-- ==== Proof.StatsCnt.lean ====
/-
  The partial COUNTS table the statistics body leaves, case by case.

  The body treats the table of partial counts (eight rows, one per position of a row inside its block; 512 columns,
  one per label) as four slices of 128 columns. For the slice from column `o` on it compares every label word of the
  block with `lane + o` (a one-hot comparison, as a number one or zero), sums the result along the 1024 columns of the
  block's row, and adds that to what the slice held. So at table index `(b, l)` the body adds
  `∑ cc, ind (label (b, cc)) l`: the number of pixels of row `b` of the block labelled `l` (`Cert.Spec.partCnt`).

  At the first grid point the table is first filled with zeros, and each slice's load then reads those zeros (the
  slices stored before it are other columns), so what is left is the count alone; at the later points the four
  stores go over the carried contents.
-/
import proofs.«408821_j36876589203621_3_alg».proof.Proof.Spec
import proofs.«408821_j36876589203621_3_alg».proof.Proof.Gen.KernelIdeal.Frame
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsCnt

open Cert.KernelIdeal Cert.KernelIdeal.Gen

/-! ## The one-hot comparison and the lane sum, read at an index -/

theorem hz2 : (![0, 0] : Fin 2 → Nat) = fun _ => 0 := funext fun a => by fin_cases a <;> rfl

/-- The one-hot entry at row `b`, lane `k`, column `cc`: the label word of pixel `(b, cc)` compared with the label
    `k + off` the lane stands for, as a number (one or zero). -/
theorem onehot_apply (v4 : IVec S8x1024 32) (off : Nat) (b : Fin 8) (k : Fin 128) (cc : Fin 1024) :
    (sitofp (F := Ideal) .f32 (extui 32 (cmpi .eq
        (broadcastTo S8x128x1024 (shapeCast S8x1x1024 v4 shapeCasts_S8x1024_S8x1x1024) broadcasts_S8x1x1024_S8x128x1024)
        (broadcastTo S8x128x1024 (addi (iota .tc S1x128x1024 32 [1] iota_S1x128x1024_d1_w32)
          (broadcast S1x128x1024 (BitVec.ofNat 32 off))) broadcasts_S1x128x1024_S8x128x1024))
      natLt_1_32)) (ix3 b k cc) = Cert.Spec.ind (v4 (ix2 b cc)) (k.val + off) := by
  have e1 : broadcastTo S8x128x1024 (shapeCast S8x1x1024 v4 shapeCasts_S8x1024_S8x1x1024) broadcasts_S8x1x1024_S8x128x1024 (ix3 b k cc)
      = v4 (ix2 b cc) := by
    refine (broadcastTo_apply _ _ (ix3 b k cc) (ix3 b (0 : Fin 1) cc) fun a => ?_).trans ?_
    · match a with
      | ⟨0, _⟩ => rfl
      | ⟨1, _⟩ => rfl
      | ⟨2, _⟩ => rfl
    · refine shapeCast_apply _ _ _ (ix2 b cc) ?_
      rw [Shape.rowMajor_val_two, Shape.rowMajor_val_three]
      show b.val * 1024 + cc.val = (b.val * 1 + 0) * 1024 + cc.val
      omega
  have e2 : broadcastTo S8x128x1024 (addi (iota .tc S1x128x1024 32 [1] iota_S1x128x1024_d1_w32)
          (broadcast S1x128x1024 (BitVec.ofNat 32 off))) broadcasts_S1x128x1024_S8x128x1024 (ix3 b k cc)
      = BitVec.ofNat 32 (k.val + off) := by
    refine (broadcastTo_apply _ _ (ix3 b k cc) (ix3 (0 : Fin 1) k cc) fun a => ?_).trans ?_
    · match a with
      | ⟨0, _⟩ => rfl
      | ⟨1, _⟩ => rfl
      | ⟨2, _⟩ => rfl
    · show IntOp.addi (iota .tc S1x128x1024 32 [1] iota_S1x128x1024_d1_w32 (ix3 (0 : Fin 1) k cc)) (BitVec.ofNat 32 off) = _
      rw [iota_single_apply]
      show BitVec.ofNat 32 k.val + BitVec.ofNat 32 off = _
      rw [BitVec.ofNat_add]
  show ((((IntOp.cmpi .eq (broadcastTo S8x128x1024 (shapeCast S8x1x1024 v4 shapeCasts_S8x1024_S8x1x1024) broadcasts_S8x1x1024_S8x128x1024 (ix3 b k cc))
      (broadcastTo S8x128x1024 (addi (iota .tc S1x128x1024 32 [1] iota_S1x128x1024_d1_w32)
          (broadcast S1x128x1024 (BitVec.ofNat 32 off))) broadcasts_S1x128x1024_S8x128x1024 (ix3 b k cc))).setWidth 32).toInt : ℝ) : EReal) = _
  rw [e1, e2]
  unfold Cert.Spec.ind IntOp.cmpi
  by_cases h : v4 (ix2 b cc) = BitVec.ofNat 32 (k.val + off)
  · rw [if_pos h, h]; simp
  · rw [if_neg h]
    have : (v4 (ix2 b cc) == BitVec.ofNat 32 (k.val + off)) = false := by simpa using h
    simp [this]

/-- The index the lane sum inserts column `cc` at. -/
theorem lift_eq (b : Fin 8) (k : Fin 128) (cc : Fin 1024) :
    reduces_S8x128x1024_S8x128.lift (ix2 b k) cc = ix3 b k cc := by
  funext a
  match a with
  | ⟨0, _⟩ => rfl
  | ⟨1, _⟩ => rfl
  | ⟨2, _⟩ => rfl

/-- The sum over the 1024 columns, read at row `b` and lane `k`. -/
theorem lane_sum (f : FVec Ideal S8x128x1024 .f32) (g : Fin 1024 → EReal) (b : Fin 8) (k : Fin 128)
    (h : ∀ cc : Fin 1024, f (ix3 b k cc) = g cc) :
    multiReduction (F := Ideal) .add [2] S8x128 f 0x00000000#32 reduces_S8x128x1024_S8x128 (.inl rfl) rfl (ix2 b k)
      = ∑ cc : Fin 1024, g cc :=
  (Ideal.multiReduction_add_single f _ _ _ _ (ix2 b k)).trans
    (Finset.sum_congr rfl fun cc _ => (congrArg f (lift_eq b k cc)).trans (h cc))

/-! ## The four count payloads: what a slice held, plus the number of pixels of the row with the lane's label -/

theorem pay10_apply (v3 : Vec Ideal S8x1024 .i32) (v : Vec Ideal S8x128 .f32) (b : Fin 8) (k : Fin 128) :
    k0_pay10 (F := Ideal) v3 v (ix2 b k)
      = v (ix2 b k) + ∑ cc : Fin 1024, Cert.Spec.ind (v3 (ix2 b cc)) (k.val + 0) := by
  unfold k0_pay10 k0_pay8 k0_pay6
  simp only [shapeCast_self]
  rw [addf_apply]
  congr 1
  exact lane_sum _ _ b k fun cc => onehot_apply v3 0 b k cc

theorem pay14_apply (v3 : Vec Ideal S8x1024 .i32) (v : Vec Ideal S8x128 .f32) (b : Fin 8) (k : Fin 128) :
    k0_pay14 (F := Ideal) (k0_pay11 (F := Ideal) v3) v (ix2 b k)
      = v (ix2 b k) + ∑ cc : Fin 1024, Cert.Spec.ind (v3 (ix2 b cc)) (k.val + 128) := by
  unfold k0_pay14 k0_pay12 k0_pay11 k0_pay6
  simp only [shapeCast_self]
  rw [addf_apply]
  congr 1
  exact lane_sum _ _ b k fun cc => onehot_apply v3 128 b k cc

theorem pay17_apply (v3 : Vec Ideal S8x1024 .i32) (v : Vec Ideal S8x128 .f32) (b : Fin 8) (k : Fin 128) :
    k0_pay17 (F := Ideal) (k0_pay6 (F := Ideal) v3) v (ix2 b k)
      = v (ix2 b k) + ∑ cc : Fin 1024, Cert.Spec.ind (v3 (ix2 b cc)) (k.val + 256) := by
  unfold k0_pay17 k0_pay15 k0_pay6
  simp only [shapeCast_self]
  rw [addf_apply]
  congr 1
  exact lane_sum _ _ b k fun cc => onehot_apply v3 256 b k cc

theorem pay3_apply (v3 : Vec Ideal S8x1024 .i32) (v : Vec Ideal S8x128 .f32) (b : Fin 8) (k : Fin 128) :
    k0_pay3 (F := Ideal) (k0_pay6 (F := Ideal) v3) v (ix2 b k)
      = v (ix2 b k) + ∑ cc : Fin 1024, Cert.Spec.ind (v3 (ix2 b cc)) (k.val + 384) := by
  unfold k0_pay3 k0_pay1 k0_pay6
  simp only [shapeCast_self]
  rw [addf_apply]
  congr 1
  exact lane_sum _ _ b k fun cc => onehot_apply v3 384 b k cc

/-! ## The table's four column slices -/

/-- Row of an index of the slice of 128 columns from column `o` on. -/
theorem slice_row (o : Nat) (inb : ∀ a, (![0, o] : Fin 2 → Nat) a + (![8, 128] : Fin 2 → Nat) a ≤ S8x512.size a)
    (b : Fin 8) (k : Fin 128) :
    (Rect.unit (s := S8x512) ![0, o] ![8, 128] inb).emb (ix2 b k) 0 = b :=
  Fin.ext (by show 0 + 1 * b.val = b.val; omega)

/-- Column of an index of that slice: `k + o`. -/
theorem slice_col (o : Nat) (inb : ∀ a, (![0, o] : Fin 2 → Nat) a + (![8, 128] : Fin 2 → Nat) a ≤ S8x512.size a)
    (b : Fin 8) (k : Fin 128) :
    ((Rect.unit (s := S8x512) ![0, o] ![8, 128] inb).emb (ix2 b k) 1).val = k.val + o := by
  show o + 1 * k.val = k.val + o; omega

/-- An index whose column lies in the slice's range is in the slice. -/
theorem mem_slice (o : Nat) (inb : ∀ a, (![0, o] : Fin 2 → Nat) a + (![8, 128] : Fin 2 → Nat) a ≤ S8x512.size a)
    (y : S8x512.Idx) (h1 : o ≤ (y 1).val) (h2 : (y 1).val < o + 128) :
    y ∈ (Rect.unit (s := S8x512) ![0, o] ![8, 128] inb).set := by
  have h0 : (y 0).val < 8 := (y 0).isLt
  refine Rect.mem_set_unit.mpr fun a => ?_
  match a with
  | ⟨0, _⟩ => exact ⟨Nat.zero_le _, (by show (y 0).val < 0 + 8; omega)⟩
  | ⟨1, _⟩ => exact ⟨h1, h2⟩

/-- An index whose column lies outside the slice's range is not in the slice. -/
theorem not_mem_slice (o : Nat) (inb : ∀ a, (![0, o] : Fin 2 → Nat) a + (![8, 128] : Fin 2 → Nat) a ≤ S8x512.size a)
    (y : S8x512.Idx) (h : (y 1).val < o ∨ o + 128 ≤ (y 1).val) :
    y ∉ (Rect.unit (s := S8x512) ![0, o] ![8, 128] inb).set := fun hm => by
  have := (Rect.mem_set_unit.mp hm) 1
  change o ≤ (y 1).val ∧ (y 1).val < o + 128 at this
  omega

/-- A store to a slice the index is not in does not change what the index reads. -/
theorem canon_skip {Val : EltTy → Type} [∀ e, Nonempty (Val e)] (o : Nat)
    (inb : ∀ a, (![0, o] : Fin 2 → Nat) a + (![8, 128] : Fin 2 → Nat) a ≤ S8x512.size a)
    (w : (⟨2, ![8, 128]⟩ : Shape).Idx → Val .f32) (L : List (View.Piece Val S8x512 .f32)) (y : S8x512.Idx)
    (h : (y 1).val < o ∨ o + 128 ≤ (y 1).val) :
    View.canon ((⟨Rect.unit (s := S8x512) ![0, o] ![8, 128] inb, w⟩ : View.Piece Val S8x512 .f32) :: L) y = View.canon L y :=
  View.canon_cons_of_not_mem _ _ (not_mem_slice o inb y h)

/-- The pieces of a list's front part that all agree with one function `G` of the table's index decide the reading at
    every index one of them covers, whatever was stored before them. -/
theorem canon_prefix {Val : EltTy → Type} [∀ e, Nonempty (Val e)] {S : Shape} {e : EltTy} (G : S.Idx → Val e) :
    ∀ (L L' : List (View.Piece Val S e)) (_ : ∀ p ∈ L, ∀ x : p.1.shape.Idx, p.2 x = G (p.1.emb x)) (y : S.Idx)
      (_ : ∃ p ∈ L, y ∈ p.1.set), View.canon (L ++ L') y = G y
  | [], _, _, _, hy => by obtain ⟨p, hp, _⟩ := hy; simp at hp
  | p :: L, L', hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_prefix G L L' (fun q hq => hL q (by simp [hq])) y ?_
      obtain ⟨q, hq, hyq⟩ := hy
      rcases List.mem_cons.mp hq with rfl | hq'
      · exact absurd hyq hm
      · exact ⟨q, hq', hyq⟩

/-- The four slices cover the table. -/
theorem cover4 {Val : EltTy → Type} (inb3 inb2 inb1 inb0)
    (w3 w2 w1 w0 : (⟨2, ![8, 128]⟩ : Shape).Idx → Val .f32) (y : S8x512.Idx) :
    ∃ p ∈ ([⟨Rect.unit (s := S8x512) ![0, 384] ![8, 128] inb3, w3⟩, ⟨Rect.unit (s := S8x512) ![0, 256] ![8, 128] inb2, w2⟩,
        ⟨Rect.unit (s := S8x512) ![0, 128] ![8, 128] inb1, w1⟩, ⟨Rect.unit (s := S8x512) ![0, 0] ![8, 128] inb0, w0⟩] :
        List (View.Piece Val S8x512 .f32)), y ∈ p.1.set := by
  have hl : (y 1).val < 512 := (y 1).isLt
  by_cases c3 : 384 ≤ (y 1).val
  · exact ⟨_, List.mem_cons_self, mem_slice 384 inb3 y c3 (by omega)⟩
  by_cases c2 : 256 ≤ (y 1).val
  · exact ⟨_, List.mem_cons_of_mem _ List.mem_cons_self, mem_slice 256 inb2 y c2 (by omega)⟩
  by_cases c1 : 128 ≤ (y 1).val
  · exact ⟨_, List.mem_cons_of_mem _ (List.mem_cons_of_mem _ List.mem_cons_self), mem_slice 128 inb1 y c1 (by omega)⟩
  · exact ⟨_, List.mem_cons_of_mem _ (List.mem_cons_of_mem _ (List.mem_cons_of_mem _ List.mem_cons_self)),
      mem_slice 0 inb0 y (Nat.zero_le _) (by omega)⟩

/-- One slice store's payload is the table's earlier entry plus the block's count, at the table index under it:
    `T` is what the table held, `ldv` what the slice's load read of it, `pay` the payload with the offset `o`. -/
theorem piece_eq (x0 : Vec Ideal S8x1024 .i32) (T : S8x512.Idx → EReal) (o : Nat)
    (inb : ∀ a, (![0, o] : Fin 2 → Nat) a + (![8, 128] : Fin 2 → Nat) a ≤ S8x512.size a)
    (pay : Vec Ideal S8x1024 .i32 → Vec Ideal S8x128 .f32 → FVec Ideal S8x128 .f32)
    (hpay : ∀ v3 v b k, pay v3 v (ix2 b k) = v (ix2 b k) + ∑ cc : Fin 1024, Cert.Spec.ind (v3 (ix2 b cc)) (k.val + o))
    (ldv : Vec Ideal S8x128 .f32)
    (hld : ∀ b k, ldv (ix2 b k) = T ((Rect.unit (s := S8x512) ![0, o] ![8, 128] inb).emb (ix2 b k)))
    (x : (⟨2, ![8, 128]⟩ : Shape).Idx) :
    pay x0 ldv x = (fun j : S8x512.Idx => T j + Cert.Spec.partCnt x0 (j 0) (j 1))
      ((Rect.unit (s := S8x512) ![0, o] ![8, 128] inb).emb x) := by
  obtain ⟨b, k, rfl⟩ : ∃ (b : Fin 8) (k : Fin 128), x = ix2 b k := ⟨x 0, x 1, eq_ix2 x⟩
  rw [hpay, hld]
  show _ + _ = T _ + Cert.Spec.partCnt x0 ((Rect.unit (s := S8x512) ![0, o] ![8, 128] inb).emb (ix2 b k) 0)
    ((Rect.unit (s := S8x512) ![0, o] ![8, 128] inb).emb (ix2 b k) 1)
  congr 1
  unfold Cert.Spec.partCnt
  rw [slice_row, slice_col]

/-! ## What the zero-filled table reads under the slices not yet stored to -/

/-- The zero fill reads zero everywhere. -/
theorem fill_zero (inb : ∀ a, (![0, 0] : Fin 2 → Nat) a + S8x512.size a ≤ S8x512.size a)
    (L : List (View.Piece (Elt Ideal) S8x512 .f32)) (y : S8x512.Idx) :
    View.canon ((⟨Rect.unit (s := S8x512) ![0, 0] S8x512.size inb, k0_pay5 (F := Ideal)⟩ : View.Piece (Elt Ideal) S8x512 .f32) :: L) y
      = (0 : EReal) := by
  rw [View.canon_cons_unit_zero (S := S8x512) hz2]
  show Ideal.ofBits .f32 0x00000000#32 = 0
  exact Ideal.ofBits_zero_f32

/-! ## The two cases of the body -/

/-- At the first grid point the body clears the table of partial counts and then adds the block's contribution:
    what it leaves is that contribution alone. -/
theorem out_A_cnt (c : Dev nD) (i : grid0.Coords) (a1 : Memref sig .tc .vmem S8x1024 .i32) (h1 : a1.IsWhole)
    (a2 : Memref sig .tc .vmem S8x1024 .f32) (h2 : a2.IsWhole) (a3 : Memref sig .tc .vmem S8x512 .f32) (h3 : a3.IsWhole)
    (a4 : Memref sig .tc .vmem S8x512 .f32) (h4 : a4.IsWhole) (hc : cond0_0 i)
    (x0 : Vec Ideal S8x1024 .i32) (x1 : Vec Ideal S8x1024 .f32) :
    out0_A_3 (F := Ideal) c i a1 h1 a2 h2 a3 h3 a4 h4 hc x0 x1 = fun j => Cert.Spec.partCnt x0 (j 0) (j 1) := by
  unfold out0_A_3
  rw [View.read_writes_eq_canon _ _ _ (cover0_A_3 c i a1 h1 a2 h2 a3 h3 a4 h4 hc x0 x1)]
  unfold kernelRun0_A
  dsimp only
  sl_unfold_words
  simp only [View.readAt_eq_ld, h1.read_unread, View.ld_unit_zero (S := S8x1024) hz2, View.readCov_eq_canon']
  funext j
  refine (canon_prefix (fun j : S8x512.Idx => (0 : EReal) + Cert.Spec.partCnt x0 (j 0) (j 1)) [_, _, _, _] [_] ?_ j
    (cover4 inb_S8x512_S8x128_0_384 inb_S8x512_S8x128_0_256 inb_S8x512_S8x128_0_128 inb_S8x512_S8x128_0_0 _ _ _ _ j)).trans (zero_add _)
  intro p hp
  simp only [List.mem_cons, List.not_mem_nil, or_false] at hp
  rcases hp with rfl | rfl | rfl | rfl
  · refine piece_eq x0 (fun _ => 0) 384 inb_S8x512_S8x128_0_384 (fun v3 v => k0_pay3 (F := Ideal) (k0_pay6 (F := Ideal) v3) v) pay3_apply _
      (fun b k => ?_)
    show (View.canon _ _ : Elt Ideal .f32) = 0
    refine (canon_skip 256 inb_S8x512_S8x128_0_256 _ _ _ (Or.inr ?_)).trans ((canon_skip 128 inb_S8x512_S8x128_0_128 _ _ _ (Or.inr ?_)).trans
      ((canon_skip 0 inb_S8x512_S8x128_0_0 _ _ _ (Or.inr ?_)).trans (fill_zero inb_S8x512_S8x512_0_0 _ _)))
    all_goals (show _ ≤ 384 + 1 * k.val; omega)
  · refine piece_eq x0 (fun _ => 0) 256 inb_S8x512_S8x128_0_256 (fun v3 v => k0_pay17 (F := Ideal) (k0_pay6 (F := Ideal) v3) v) pay17_apply _
      (fun b k => ?_)
    show (View.canon _ _ : Elt Ideal .f32) = 0
    refine (canon_skip 128 inb_S8x512_S8x128_0_128 _ _ _ (Or.inr ?_)).trans ((canon_skip 0 inb_S8x512_S8x128_0_0 _ _ _ (Or.inr ?_)).trans (fill_zero inb_S8x512_S8x512_0_0 _ _))
    all_goals (show _ ≤ 256 + 1 * k.val; omega)
  · refine piece_eq x0 (fun _ => 0) 128 inb_S8x512_S8x128_0_128 (fun v3 v => k0_pay14 (F := Ideal) (k0_pay11 (F := Ideal) v3) v) pay14_apply _
      (fun b k => ?_)
    show (View.canon _ _ : Elt Ideal .f32) = 0
    refine (canon_skip 0 inb_S8x512_S8x128_0_0 _ _ _ (Or.inr ?_)).trans (fill_zero inb_S8x512_S8x512_0_0 _ _)
    show _ ≤ 128 + 1 * k.val; omega
  · refine piece_eq x0 (fun _ => 0) 0 inb_S8x512_S8x128_0_0 (fun v3 v => k0_pay10 (F := Ideal) v3 v) pay10_apply _ (fun b k => ?_)
    show (View.canon _ _ : Elt Ideal .f32) = 0
    exact fill_zero inb_S8x512_S8x512_0_0 _ _

/-- At every later grid point the body adds the block's contribution to what the table held. -/
theorem out_B_cnt (c : Dev nD) (i : grid0.Coords) (a1 : Memref sig .tc .vmem S8x1024 .i32) (h1 : a1.IsWhole)
    (a2 : Memref sig .tc .vmem S8x1024 .f32) (h2 : a2.IsWhole) (a3 : Memref sig .tc .vmem S8x512 .f32) (h3 : a3.IsWhole)
    (a4 : Memref sig .tc .vmem S8x512 .f32) (h4 : a4.IsWhole) (hc : ¬cond0_0 i)
    (x0 : Vec Ideal S8x1024 .i32) (x1 : Vec Ideal S8x1024 .f32) (xo2 xo3 : Vec Ideal S8x512 .f32) :
    out0_B_3 (F := Ideal) c i a1 h1 a2 h2 a3 h3 a4 h4 hc x0 x1 xo2 xo3
      = fun j => xo3 j + Cert.Spec.partCnt x0 (j 0) (j 1) := by
  unfold out0_B_3
  rw [View.read_writes_eq_canon _ _ _ (cover0_B_3 c i a1 h1 a2 h2 a3 h3 a4 h4 hc x0 x1 xo2 xo3)]
  funext j
  refine View.canon_apply_of_pieces (fun j : S8x512.Idx => xo3 j + Cert.Spec.partCnt x0 (j 0) (j 1)) _ ?_ j
    (cover0_B_3 c i a1 h1 a2 h2 a3 h3 a4 h4 hc x0 x1 xo2 xo3 j)
  unfold kernelRun0_B
  dsimp only
  sl_unfold_words
  simp only [View.readAt_eq_ld, h1.read_unread, h4.read_unread, View.ld_unit_zero (S := S8x1024) hz2]
  intro p hp
  simp only [List.mem_cons, List.not_mem_nil, or_false] at hp
  rcases hp with rfl | rfl | rfl | rfl
  · exact piece_eq x0 xo3 384 inb_S8x512_S8x128_0_384 (fun v3 v => k0_pay3 (F := Ideal) (k0_pay6 (F := Ideal) v3) v) pay3_apply _ (fun _ _ => rfl)
  · exact piece_eq x0 xo3 256 inb_S8x512_S8x128_0_256 (fun v3 v => k0_pay17 (F := Ideal) (k0_pay6 (F := Ideal) v3) v) pay17_apply _ (fun _ _ => rfl)
  · exact piece_eq x0 xo3 128 inb_S8x512_S8x128_0_128 (fun v3 v => k0_pay14 (F := Ideal) (k0_pay11 (F := Ideal) v3) v) pay14_apply _ (fun _ _ => rfl)
  · exact piece_eq x0 xo3 0 inb_S8x512_S8x128_0_0 (fun v3 v => k0_pay10 (F := Ideal) v3 v) pay10_apply _ (fun _ _ => rfl)

end Cert.KernelIdeal.StatsCnt

end
-- ==== Proof.StatsAcc.lean ====
/-
  What region 0 leaves in its two result arrays, at the ideal instance.

  The region walks the image in 2048 blocks of eight rows. At each block it adds, for every row position `b` and label
  `l`, the block's contribution (`Cert.Spec.partSum`, `Cert.Spec.partCnt`) to a running table that starts afresh at
  the first block. So after block `n` the table is the sum of the contributions of blocks `0 … n` — an induction on
  `n`. The table is written to its array once, after the last block, and its one block is the whole array; a block of
  the image at point `t` reads rows `8 t + b`, so the sum over all blocks is the sum over all rows at position `b`
  (`Cert.Spec.rowsSum`, `Cert.Spec.rowsCnt`).
-/
import proofs.«408821_j36876589203621_3_alg».proof.Proof.StatsSum
import proofs.«408821_j36876589203621_3_alg».proof.Proof.StatsCnt
import proofs.«408821_j36876589203621_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsAcc

open Cert.KernelIdeal Cert.KernelIdeal.Gen

variable (V : (c : Dev nD) → (b : Ref sig .tc) → Buf (Elt Ideal) ((c : Thread nD τ).loc b))

/-! ## The blocks of the two images -/

/-- The block of labels at point `t`: eight rows of the label image. -/
abbrev lblk (c : Dev nD) (t : Fin cfg0.N) : Vec Ideal S8x1024 .i32 := iblk0 (F := Ideal) V c 0 t
/-- The block of intensities at point `t`. -/
abbrev xblk (c : Dev nD) (t : Fin cfg0.N) : Vec Ideal S8x1024 .f32 := iblk0 (F := Ideal) V c 1 t

/-- A grid point is below 2048. -/
theorem tlt (t : Fin cfg0.N) : t.val < 2048 := lt_of_lt_of_eq t.isLt N_0

/-- Row `b` of the label block at point `t` is row `8 t + b` of the label image: on each axis the block's
    coordinate is the block index times the block's size plus the coordinate inside the block. -/
theorem lblk_apply (c : Dev nD) (t : Fin cfg0.N) (b : Fin 8) (cc : Fin 1024) :
    lblk V c t (ix2 b cc) = V c main_v0 (ix2 (Cert.Spec.rowOf ⟨t.val, tlt t⟩ b) cc) := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold lblk iblk0
  rw [View.read_apply]
  show V c main_v0 _ = V c main_v0 _
  congr 1
  funext a
  apply Fin.ext
  match a with
  | ⟨0, _⟩ => show win0_0.index t 0 * 8 + 1 * b.val = 8 * t.val + b.val; rw [hi.1]; omega
  | ⟨1, _⟩ => show win0_0.index t 1 * 1024 + 1 * cc.val = cc.val; rw [hi.2]; omega

/-- The same for the intensities. -/
theorem xblk_apply (c : Dev nD) (t : Fin cfg0.N) (b : Fin 8) (cc : Fin 1024) :
    xblk V c t (ix2 b cc) = V c main_v1 (ix2 (Cert.Spec.rowOf ⟨t.val, tlt t⟩ b) cc) := by
  have hi : win0_1.index t (0 : Fin 2) = t.val ∧ win0_1.index t (1 : Fin 2) = 0 :=
    (by decide +kernel : ∀ t : Fin grid0.N, win0_1.index t (0 : Fin 2) = t.val ∧ win0_1.index t (1 : Fin 2) = 0) t
  unfold xblk iblk0
  rw [View.read_apply]
  show V c main_v1 _ = V c main_v1 _
  congr 1
  funext a
  apply Fin.ext
  match a with
  | ⟨0, _⟩ => show win0_1.index t 0 * 8 + 1 * b.val = 8 * t.val + b.val; rw [hi.1]; omega
  | ⟨1, _⟩ => show win0_1.index t 1 * 1024 + 1 * cc.val = cc.val; rw [hi.2]; omega

/-! ## The running tables, by induction on the point -/

/-- What block `t` adds to the partial total at row position `b` and label `l` (nothing beyond the grid). -/
def addSum (c : Dev nD) (b : Fin 8) (l : Fin 512) (t : ℕ) : EReal :=
  if h : t < cfg0.N then Cert.Spec.partSum (lblk V c ⟨t, h⟩) (xblk V c ⟨t, h⟩) b l else 0

/-- What block `t` adds to the partial count (nothing beyond the grid). -/
def addCnt (c : Dev nD) (b : Fin 8) (l : Fin 512) (t : ℕ) : EReal :=
  if h : t < cfg0.N then Cert.Spec.partCnt (lblk V c ⟨t, h⟩) b l else 0

/-- Inside the grid it is the block's contribution. -/
theorem addSum_of_lt (c : Dev nD) (b : Fin 8) (l : Fin 512) (t : ℕ) (h : t < cfg0.N) :
    addSum V c b l t = Cert.Spec.partSum (lblk V c ⟨t, h⟩) (xblk V c ⟨t, h⟩) b l := dif_pos h

/-- Inside the grid it is the block's contribution. -/
theorem addCnt_of_lt (c : Dev nD) (b : Fin 8) (l : Fin 512) (t : ℕ) (h : t < cfg0.N) :
    addCnt V c b l t = Cert.Spec.partCnt (lblk V c ⟨t, h⟩) b l := dif_pos h

/-- The running table of totals after point `n` is the sum of what the blocks up to `n` add: by induction on the point. -/
theorem outs_sum (c : Dev nD) : ∀ (n : ℕ) (hn : n < cfg0.N) (b : Fin 8) (l : Fin 512),
    (outsAt0 (F := Ideal) V c n hn).1 (ix2 b l) = ∑ t ∈ Finset.range (n + 1), addSum V c b l t
  | 0, hn, b, l => by
    rw [outsAt0_A V c ⟨0, hn⟩ (Nat.zero_mod _)]
    dsimp only
    refine (congrFun (StatsSum.out_A_sum c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr (Nat.zero_mod _))
      (iblk0 (F := Ideal) V c 0 ⟨0, hn⟩) (iblk0 (F := Ideal) V c 1 ⟨0, hn⟩)) (ix2 b l)).trans ?_
    rw [Finset.sum_range_one, addSum_of_lt V c b l 0 hn]
  | n + 1, hn, b, l => by
    have hN : n + 1 < 2048 := lt_of_lt_of_eq hn N_0
    have hB : ¬(⟨n + 1, hn⟩ : Fin cfg0.N).val % 2048 = 0 := by dsimp only; omega
    rw [outsAt0_B V c ⟨n + 1, hn⟩ hB]
    dsimp only
    refine (congrFun (StatsSum.out_B_sum c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (fun h => hB ((hcond0_0 ⟨n + 1, hn⟩).mp h))
      (iblk0 (F := Ideal) V c 0 ⟨n + 1, hn⟩) (iblk0 (F := Ideal) V c 1 ⟨n + 1, hn⟩)
      (outsAt0 (F := Ideal) V c (n + 1 - 1) (Nat.lt_of_le_of_lt (Nat.sub_le _ _) hn)).1
      (outsAt0 (F := Ideal) V c (n + 1 - 1) (Nat.lt_of_le_of_lt (Nat.sub_le _ _) hn)).2) (ix2 b l)).trans ?_
    rw [Finset.sum_range_succ, addSum_of_lt V c b l (n + 1) hn]
    exact congrArg (· + Cert.Spec.partSum (lblk V c ⟨n + 1, hn⟩) (xblk V c ⟨n + 1, hn⟩) b l) (outs_sum c n (Nat.lt_of_succ_lt hn) b l)

/-- The same for the running table of counts. -/
theorem outs_cnt (c : Dev nD) : ∀ (n : ℕ) (hn : n < cfg0.N) (b : Fin 8) (l : Fin 512),
    (outsAt0 (F := Ideal) V c n hn).2 (ix2 b l) = ∑ t ∈ Finset.range (n + 1), addCnt V c b l t
  | 0, hn, b, l => by
    rw [outsAt0_A V c ⟨0, hn⟩ (Nat.zero_mod _)]
    dsimp only
    refine (congrFun (StatsCnt.out_A_cnt c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr (Nat.zero_mod _))
      (iblk0 (F := Ideal) V c 0 ⟨0, hn⟩) (iblk0 (F := Ideal) V c 1 ⟨0, hn⟩)) (ix2 b l)).trans ?_
    rw [Finset.sum_range_one, addCnt_of_lt V c b l 0 hn]
  | n + 1, hn, b, l => by
    have hN : n + 1 < 2048 := lt_of_lt_of_eq hn N_0
    have hB : ¬(⟨n + 1, hn⟩ : Fin cfg0.N).val % 2048 = 0 := by dsimp only; omega
    rw [outsAt0_B V c ⟨n + 1, hn⟩ hB]
    dsimp only
    refine (congrFun (StatsCnt.out_B_cnt c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (fun h => hB ((hcond0_0 ⟨n + 1, hn⟩).mp h))
      (iblk0 (F := Ideal) V c 0 ⟨n + 1, hn⟩) (iblk0 (F := Ideal) V c 1 ⟨n + 1, hn⟩)
      (outsAt0 (F := Ideal) V c (n + 1 - 1) (Nat.lt_of_le_of_lt (Nat.sub_le _ _) hn)).1
      (outsAt0 (F := Ideal) V c (n + 1 - 1) (Nat.lt_of_le_of_lt (Nat.sub_le _ _) hn)).2) (ix2 b l)).trans ?_
    rw [Finset.sum_range_succ, addCnt_of_lt V c b l (n + 1) hn]
    exact congrArg (· + Cert.Spec.partCnt (lblk V c ⟨n + 1, hn⟩) b l) (outs_cnt c n (Nat.lt_of_succ_lt hn) b l)

/-! ## The one write-back, and the arrays after the region -/

/-- The last grid point. -/
abbrev tL : Fin cfg0.N := ⟨2047, by rw [show cfg0.N = 2048 from N_0]; omega⟩

/-- The table after the last point, as contents of the result array (its one block is the whole array). -/
def tabSum (c : Dev nD) : Vec Ideal S8x512 .f32 :=
  fun j => (∑ t ∈ Finset.range 2048, addSum V c (j 0) (j 1) t : EReal)

/-- The running table of totals after the last point. -/
theorem outs_sum_last (c : Dev nD) : (outsAt0 (F := Ideal) V c 2047 tL.isLt).1 = tabSum V c := by
  funext j
  obtain ⟨b, l, rfl⟩ : ∃ (b : Fin 8) (l : Fin 512), j = ix2 b l := ⟨j 0, j 1, eq_ix2 j⟩
  exact outs_sum V c 2047 tL.isLt b l

/-- The one write-back, at the last point, writes that table: block (0, 0) of the [8,512] array read through zero
    offsets is the array. -/
theorem flushed_sum (c : Dev nD) (t : Fin cfg0.N) (hf : (cfg0.win 2).flush t = true) :
    (dat0 (F := Ideal) V c).flushed 2 t = ((cfg0.win 2).blk t).view.read (Elt Ideal) (tabSum V c) := by
  have hN : t.val < 2048 := tlt t
  have h3 : t.val = 2047 := by have := (flush0_2 t).mp hf; omega
  obtain rfl : t = tL := Fin.ext h3
  show (cfg0.win 2).cut (grid0.coords tL) ((dat0 (F := Ideal) V c).after 2 tL) = _
  rw [after0_2, outs_sum_last]
  have hz' : (fun a => win0_2.index tL a * main_v2_0.ty.shape.size a) = fun _ => 0 := funext fun a => by fin_cases a <;> decide +kernel
  exact (Memref.read_access_unit_zero (Elt Ideal) main_v2_0 hz' (fun a => by rw [congrFun hz' a]; simp) (tabSum V c)).symm

/-- So the result array ends holding that table: the last point's block covers every index. -/
theorem final_sum (c : Dev nD) : (dat0 (F := Ideal) V c).arrAt 2 cfg0.N = tabSum V c :=
  (dat0 (F := Ideal) V c).arrAt_eq_of_cover 2 (tabSum V c) (flushed_sum V c) fun i =>
    ⟨tL, (flush0_2 tL).mpr rfl, by
      show i ∈ ((View.whole main_v2_0).slice (win0_2.rect tL)).set
      rw [View.set_slice_whole, Rect.mem_set_unit]
      intro a
      have h0 : (i 0 : Nat) < 8 := (i 0).isLt
      have h1 : (i 1 : Nat) < 512 := (i 1).isLt
      match a with
      | ⟨0, _⟩ => show win0_2.index tL 0 * win0_2.size 0 ≤ (i 0 : Nat) ∧ (i 0 : Nat) < win0_2.index tL 0 * win0_2.size 0 + win0_2.xsize (grid0.coords tL) 0
                  rw [show win0_2.index tL 0 * win0_2.size 0 = 0 from by decide +kernel, show win0_2.xsize (grid0.coords tL) 0 = 8 from by decide +kernel]; omega
      | ⟨1, _⟩ => show win0_2.index tL 1 * win0_2.size 1 ≤ (i 1 : Nat) ∧ (i 1 : Nat) < win0_2.index tL 1 * win0_2.size 1 + win0_2.xsize (grid0.coords tL) 1
                  rw [show win0_2.index tL 1 * win0_2.size 1 = 0 from by decide +kernel, show win0_2.xsize (grid0.coords tL) 1 = 512 from by decide +kernel]; omega⟩

/-- The table after the last point, as contents of the result array (its one block is the whole array). -/
def tabCnt (c : Dev nD) : Vec Ideal S8x512 .f32 :=
  fun j => (∑ t ∈ Finset.range 2048, addCnt V c (j 0) (j 1) t : EReal)

/-- The running table of counts after the last point. -/
theorem outs_cnt_last (c : Dev nD) : (outsAt0 (F := Ideal) V c 2047 tL.isLt).2 = tabCnt V c := by
  funext j
  obtain ⟨b, l, rfl⟩ : ∃ (b : Fin 8) (l : Fin 512), j = ix2 b l := ⟨j 0, j 1, eq_ix2 j⟩
  exact outs_cnt V c 2047 tL.isLt b l

/-- The one write-back, at the last point, writes that table: block (0, 0) of the [8,512] array read through zero
    offsets is the array. -/
theorem flushed_cnt (c : Dev nD) (t : Fin cfg0.N) (hf : (cfg0.win 3).flush t = true) :
    (dat0 (F := Ideal) V c).flushed 3 t = ((cfg0.win 3).blk t).view.read (Elt Ideal) (tabCnt V c) := by
  have hN : t.val < 2048 := tlt t
  have h3 : t.val = 2047 := by have := (flush0_3 t).mp hf; omega
  obtain rfl : t = tL := Fin.ext h3
  show (cfg0.win 3).cut (grid0.coords tL) ((dat0 (F := Ideal) V c).after 3 tL) = _
  rw [after0_3, outs_cnt_last]
  have hz' : (fun a => win0_3.index tL a * main_v2_1.ty.shape.size a) = fun _ => 0 := funext fun a => by fin_cases a <;> decide +kernel
  exact (Memref.read_access_unit_zero (Elt Ideal) main_v2_1 hz' (fun a => by rw [congrFun hz' a]; simp) (tabCnt V c)).symm

/-- So the result array ends holding that table: the last point's block covers every index. -/
theorem final_cnt (c : Dev nD) : (dat0 (F := Ideal) V c).arrAt 3 cfg0.N = tabCnt V c :=
  (dat0 (F := Ideal) V c).arrAt_eq_of_cover 3 (tabCnt V c) (flushed_cnt V c) fun i =>
    ⟨tL, (flush0_3 tL).mpr rfl, by
      show i ∈ ((View.whole main_v2_1).slice (win0_3.rect tL)).set
      rw [View.set_slice_whole, Rect.mem_set_unit]
      intro a
      have h0 : (i 0 : Nat) < 8 := (i 0).isLt
      have h1 : (i 1 : Nat) < 512 := (i 1).isLt
      match a with
      | ⟨0, _⟩ => show win0_3.index tL 0 * win0_3.size 0 ≤ (i 0 : Nat) ∧ (i 0 : Nat) < win0_3.index tL 0 * win0_3.size 0 + win0_3.xsize (grid0.coords tL) 0
                  rw [show win0_3.index tL 0 * win0_3.size 0 = 0 from by decide +kernel, show win0_3.xsize (grid0.coords tL) 0 = 8 from by decide +kernel]; omega
      | ⟨1, _⟩ => show win0_3.index tL 1 * win0_3.size 1 ≤ (i 1 : Nat) ∧ (i 1 : Nat) < win0_3.index tL 1 * win0_3.size 1 + win0_3.xsize (grid0.coords tL) 1
                  rw [show win0_3.index tL 1 * win0_3.size 1 = 0 from by decide +kernel, show win0_3.xsize (grid0.coords tL) 1 = 512 from by decide +kernel]; omega⟩

/-! ## The sum over the blocks is the sum over the rows -/

/-- Summed over all blocks, what the blocks add is the partial total over all rows `8 t + b`: each block reads the
    image at those rows. -/
theorem tabSum_eq (c : Dev nD) (b : Fin 8) (l : Fin 512) :
    (∑ t ∈ Finset.range 2048, addSum V c b l t) = Cert.Spec.rowsSum (V c main_v0) (V c main_v1) b l := by
  unfold Cert.Spec.rowsSum
  rw [← Fin.sum_univ_eq_sum_range (fun t => addSum V c b l t) 2048]
  refine Finset.sum_congr rfl fun t _ => ?_
  have ht : t.val < cfg0.N := lt_of_lt_of_eq t.isLt N_0.symm
  rw [addSum_of_lt V c b l t.val ht]
  unfold Cert.Spec.partSum
  refine Finset.sum_congr rfl fun cc _ => ?_
  exact congrArg₂ (fun a x => Cert.Spec.ind a l.val * x) (lblk_apply V c ⟨t.val, ht⟩ b cc) (xblk_apply V c ⟨t.val, ht⟩ b cc)

/-- The same for the counts. -/
theorem tabCnt_eq (c : Dev nD) (b : Fin 8) (l : Fin 512) :
    (∑ t ∈ Finset.range 2048, addCnt V c b l t) = Cert.Spec.rowsCnt (V c main_v0) b l := by
  unfold Cert.Spec.rowsCnt
  rw [← Fin.sum_univ_eq_sum_range (fun t => addCnt V c b l t) 2048]
  refine Finset.sum_congr rfl fun t _ => ?_
  have ht : t.val < cfg0.N := lt_of_lt_of_eq t.isLt N_0.symm
  rw [addCnt_of_lt V c b l t.val ht]
  unfold Cert.Spec.partCnt
  refine Finset.sum_congr rfl fun cc _ => ?_
  exact congrArg (fun a => Cert.Spec.ind a l.val) (lblk_apply V c ⟨t.val, ht⟩ b cc)

/-! ## The two result arrays -/

/-- After the last grid point the array of partial totals holds, at row position `b` and label `l`, the intensities
    of the rows `8 t + b` at the pixels labelled `l`, summed over all blocks `t`: the running table after point `n`
    is the sum over the blocks up to `n` (induction on the point), and the one write-back, at the last point, writes the
    whole table. -/
theorem arr_sum (c : Dev nD) :
    (dat0 (F := Ideal) V c).arrAt 2 cfg0.N = fun j => Cert.Spec.rowsSum (V c main_v0) (V c main_v1) (j 0) (j 1) := by
  refine (final_sum V c).trans ?_
  funext j
  exact tabSum_eq V c (j 0) (j 1)

/-- The same for the partial counts. -/
theorem arr_cnt (c : Dev nD) :
    (dat0 (F := Ideal) V c).arrAt 3 cfg0.N = fun j => Cert.Spec.rowsCnt (V c main_v0) (j 0) (j 1) := by
  refine (final_cnt V c).trans ?_
  funext j
  exact tabCnt_eq V c (j 0) (j 1)

end Cert.KernelIdeal.StatsAcc

end
-- ==== Proof.FilterBody.lean ====
import proofs.«408821_j36876589203621_3_alg».proof.Proof.Spec
import proofs.«408821_j36876589203621_3_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.FilterBody

open Cert.KernelIdeal Cert.KernelIdeal.Gen

/-! The filter's body at a pixel.

The body compares the pixel's word with the 128 lane numbers of each of four chunks of labels, turns each one-bit answer
into the number 0 or 1, multiplies it by the chunk's slice of the table and sums along the lanes; the four lane sums
are added up and compared with one half. Read at one pixel this is the sum over all 512 labels of the indicator
"the word is this label" times the table's entry: the lanes of chunk number c carry the labels 128 c, …, 128 c + 127. -/

section Layout
variable {α : Type}

/-- The block's words, given a trailing unit axis and spread along 128 lanes, read the pixel's word. -/
theorem pix_at (x : S8x1024.Idx → α) (h1 : S8x1024.ShapeCasts S8x1024x1) (h2 : S8x1024x1.Broadcasts S8x1024x128)
    (b : Fin 8) (q : Fin 1024) (k : Fin 128) :
    broadcastTo S8x1024x128 (shapeCast S8x1024x1 x h1) h2 (ix3 b q k) = x (ix2 b q) := by
  refine (broadcastTo_apply _ h2 (ix3 b q k) (ix3 b q (0 : Fin 1)) fun ax => ?_).trans ?_
  · match ax with
    | ⟨0, _⟩ => rfl
    | ⟨1, _⟩ => rfl
    | ⟨2, _⟩ => rfl
  · refine shapeCast_apply x h1 _ _ ?_
    rw [Shape.rowMajor_val_three, Shape.rowMajor_val_two]
    show b.val * 1024 + q.val = (b.val * 1024 + q.val) * 1 + 0
    omega

/-- A [1,1,128] row spread over the block's pixels reads its lane. -/
theorem row_at (v : S1x1x128.Idx → α) (h4 : S1x1x128.Broadcasts S8x1024x128) (b : Fin 8) (q : Fin 1024) (k : Fin 128) :
    broadcastTo S8x1024x128 v h4 (ix3 b q k) = v (ix3 (0 : Fin 1) (0 : Fin 1) k) := by
  refine broadcastTo_apply _ h4 (ix3 b q k) (ix3 (0 : Fin 1) (0 : Fin 1) k) fun ax => ?_
  match ax with
  | ⟨0, _⟩ => rfl
  | ⟨1, _⟩ => rfl
  | ⟨2, _⟩ => rfl

end Layout

/-- A load of 128 columns of the one-row table from column `o` reads, at lane `k`, column `o + k`. -/
theorem ld_chunk (x : Vec Ideal S1x512 .f32) (o : Nat)
    (inb : ∀ a, (![0, o] : Fin 2 → Nat) a + S1x128.size a ≤ S1x512.size a) (ho : o + 128 ≤ 512) (k : Fin 128) :
    View.ld x (Rect.unit (s := S1x512) ![0, o] S1x128.size inb) (ix2 (0 : Fin 1) k)
      = x (ix2 (0 : Fin 1) (⟨o + k.val, by omega⟩ : Fin 512)) := by
  show x _ = x _
  refine congrArg x (funext fun a => Fin.ext ?_)
  match a with
  | ⟨0, _⟩ => rfl
  | ⟨1, _⟩ =>
    show o + 1 * k.val = o + k.val
    omega

/-- An integer sum at an index adds the elements. -/
theorem addi_at {s : Shape} {w : Nat} (x y : IVec s w) (i : s.Idx) : addi x y i = x i + y i := rfl

/-- An integer comparison at an index compares the elements. -/
theorem cmpi_at {s : Shape} {w : Nat} (p : CmpIPredicate) (x y : IVec s w) (i : s.Idx) :
    cmpi p x y i = IntOp.cmpi p (x i) (y i) := rfl

/-- A sum along the 128 lanes, read at a pixel. -/
theorem lanesum_at (src : FVec Ideal S8x1024x128 .f32) (h : S8x1024x128.Reduces [2] S8x1024) (hφ : FKind.Formats .f32)
    (hacc : (0x00000000#32 : BitVec 32) = 0x00000000#32) (b : Fin 8) (q : Fin 1024) :
    multiReduction .add [2] S8x1024 src 0x00000000#32 h hφ hacc (ix2 b q) = ∑ k : Fin 128, src (ix3 b q k) := by
  refine (Ideal.multiReduction_add_single src 0x00000000#32 h hφ hacc (ix2 b q)).trans ?_
  refine Finset.sum_congr rfl fun k _ => congrArg src ?_
  funext c
  apply Fin.ext
  match c with
  | ⟨0, _⟩ => rfl
  | ⟨1, _⟩ => rfl
  | ⟨2, _⟩ => rfl

/-- One chunk's lane sum at a pixel whose word is `w`: the converted one-bit compares of `w` with the lane numbers
    `k + o`, each times the lane's entry of the chunk's slice `v` of the table. -/
def chunk (w o : BitVec 32) (v : S1x128.Idx → EReal) : EReal :=
  ∑ k : Fin 128, FloatOps.sitofp (F := Ideal) .f32 (BitVec.setWidth 32 (IntOp.cmpi .eq w (BitVec.ofNat 32 k.val + o)))
    * v (ix2 (0 : Fin 1) k)

/-- The body's stored value at a pixel, from the block's words and the four slices of the table. -/
theorem pay_at (x0 : Vec Ideal S8x1024 .i32) (a0 a1 a2 a3 : Vec Ideal S1x128 .f32) (b : Fin 8) (q : Fin 1024) :
    k1_pay1 (k1_pay2 x0) (k1_pay3 x0 a0 a1) (k1_pay4 x0) a2 a3 (ix2 b q)
      = Scalar.select (FloatOps.cmpf (F := Ideal) .ogt
          (Ideal.ofBits .f32 0x00000000#32 + chunk (x0 (ix2 b q)) 0#32 a0 + chunk (x0 (ix2 b q)) 128#32 a1
            + chunk (x0 (ix2 b q)) 256#32 a2 + chunk (x0 (ix2 b q)) 384#32 a3)
          (Ideal.ofBits .f32 0x3F000000#32)) 0#32 (x0 (ix2 b q)) := by
  unfold k1_pay1 k1_pay3 k1_pay4 k1_pay2
  simp only [select_apply, cmpf_apply, addf_apply, broadcast_apply, shapeCast_self]
  rw [lanesum_at, lanesum_at, lanesum_at, lanesum_at]
  simp only [mulf_apply, sitofp_apply, extui_apply, cmpi_at, pix_at, row_at, shapeCast_ab_1ab_apply, addi_at,
    iota_single_apply Kind.tc S1x1x128 32 2 iota_S1x1x128_d2_w32, broadcast_apply, Ideal.ofBits_def]
  unfold chunk
  rfl

/-! ## The mathematics -/

/-- The converted one-bit compare of a word with the number `k + o` is the indicator of the label `k + o`. -/
theorem sitofp_cmpi_eq_ind (w : BitVec 32) (k o : Nat) :
    FloatOps.sitofp (F := Ideal) .f32 (BitVec.setWidth 32 (IntOp.cmpi .eq w (BitVec.ofNat 32 k + BitVec.ofNat 32 o)))
      = Cert.Spec.ind w (o + k) := by
  have hz : BitVec.ofNat 32 k + BitVec.ofNat 32 o = BitVec.ofNat 32 (o + k) := by
    rw [← BitVec.ofNat_add, Nat.add_comm]
  rw [hz]
  unfold Cert.Spec.ind
  show (((BitVec.setWidth 32 (IntOp.cmpi .eq w (BitVec.ofNat 32 (o + k)))).toInt : ℝ) : EReal) = _
  by_cases h : w = BitVec.ofNat 32 (o + k)
  · rw [if_pos h]
    have e : IntOp.cmpi .eq w (BitVec.ofNat 32 (o + k)) = 1#1 := by
      show BitVec.ofBool (w == BitVec.ofNat 32 (o + k)) = 1#1
      rw [beq_iff_eq.mpr h]; rfl
    rw [e]
    have e1 : (BitVec.setWidth 32 1#1).toInt = 1 := by decide
    rw [e1]
    norm_num
  · rw [if_neg h]
    have e : IntOp.cmpi .eq w (BitVec.ofNat 32 (o + k)) = 0#1 := by
      show BitVec.ofBool (w == BitVec.ofNat 32 (o + k)) = 0#1
      rw [beq_eq_false_iff_ne.mpr h]; rfl
    rw [e]
    have e1 : (BitVec.setWidth 32 0#1).toInt = 0 := by decide
    rw [e1]
    norm_num

/-- A sum over 512 labels is the sum of the four sums over its chunks of 128. -/
theorem sum_four_chunks {M : Type} [AddCommMonoid M] (f : Fin 512 → M) :
    ∑ l : Fin 512, f l
      = ∑ k : Fin 128, f ⟨0 + k.val, by omega⟩ + ∑ k : Fin 128, f ⟨128 + k.val, by omega⟩
        + ∑ k : Fin 128, f ⟨256 + k.val, by omega⟩ + ∑ k : Fin 128, f ⟨384 + k.val, by omega⟩ := by
  have e := Fin.sum_univ_add (M := M) (a := 128 + 128 + 128) (b := 128) f
  refine e.trans ?_
  rw [Fin.sum_univ_add (a := 128 + 128) (b := 128), Fin.sum_univ_add (a := 128) (b := 128)]
  refine congrArg₂ (· + ·) (congrArg₂ (· + ·) (congrArg₂ (· + ·) ?_ ?_) ?_) ?_ <;>
    exact Finset.sum_congr rfl fun k _ => congrArg f (Fin.ext (by simp <;> omega))

/-- One chunk's lane sum, its slice of the table being columns `o, …, o + 127`, is that part of the sum over the labels. -/
theorem chunk_eq (tbl : Cert.Spec.TabRow.Idx → EReal) (w : BitVec 32) (o : Nat) (ho : o + 128 ≤ 512)
    (v : S1x128.Idx → EReal) (hv : ∀ k : Fin 128, v (ix2 (0 : Fin 1) k) = tbl (ix2 (0 : Fin 1) (⟨o + k.val, by omega⟩ : Fin 512))) :
    chunk w (BitVec.ofNat 32 o) v
      = ∑ k : Fin 128, Cert.Spec.ind w (o + k.val) * tbl (ix2 (0 : Fin 1) (⟨o + k.val, by omega⟩ : Fin 512)) := by
  unfold chunk
  exact Finset.sum_congr rfl fun k _ => by rw [sitofp_cmpi_eq_ind, hv]

/-- What the filter's body stores: at every pixel of the block, the one-hot product of the pixel's label with the table
    of flags, summed over the four chunks of 128 labels, compared with one half, selects zero or the label. -/
theorem out_filter (x0 : Vec Ideal S8x1024 .i32) (x1 : Vec Ideal S1x512 .f32) :
    out1_2 (F := Ideal) x0 x1 = fun j => Cert.Spec.selF x1 (x0 j) := by
  have hz : (![0, 0] : Fin 2 → Nat) = fun _ => 0 := by
    funext a; fin_cases a <;> rfl
  unfold out1_2
  rw [View.canon_unit_zero hz, View.ld_unit_zero (S := S8x1024) hz]
  funext j
  obtain ⟨b, q, rfl⟩ : ∃ (b : Fin 8) (q : Fin 1024), j = ix2 b q := ⟨j 0, j 1, eq_ix2 j⟩
  rw [pay_at]
  unfold Cert.Spec.selF
  rw [Ideal.ofBits_zero_f32, zero_add, sum_four_chunks,
    chunk_eq x1 _ 0 (by omega) (View.ld x1 r1_1) (fun k => ld_chunk x1 0 _ (by omega) k),
    chunk_eq x1 _ 128 (by omega) (View.ld x1 r1_2) (fun k => ld_chunk x1 128 _ (by omega) k),
    chunk_eq x1 _ 256 (by omega) (View.ld x1 r1_3) (fun k => ld_chunk x1 256 _ (by omega) k),
    chunk_eq x1 _ 384 (by omega) (View.ld x1 r1_4) (fun k => ld_chunk x1 384 _ (by omega) k)]

end Cert.KernelIdeal.FilterBody

end
-- ==== Proof.FilterArr.lean ====
import proofs.«408821_j36876589203621_3_alg».proof.Proof.FilterBody
import proofs.«408821_j36876589203621_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.FilterArr

open Cert.KernelIdeal Cert.KernelIdeal.Gen

variable (V : (c : Dev nD) → (b : Ref sig .tc) → Buf (Elt Ideal) ((c : Thread nD τ).loc b))

/-- The printed index maps, decided once over the grid: at point `t` the label window and the result window both sit
    at block `(t, 0)`, and the table's window at its one block `(0, 0)`. -/
theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 2) = 0 ∧ win1_1.index t (1 : Fin 2) = 0 :=
  (by decide +kernel : ∀ t : Fin grid1.N, win1_0.index t (0 : Fin 2) = t.val ∧ win1_0.index t (1 : Fin 2) = 0
    ∧ win1_2.index t (0 : Fin 2) = t.val ∧ win1_2.index t (1 : Fin 2) = 0
    ∧ win1_1.index t (0 : Fin 2) = 0 ∧ win1_1.index t (1 : Fin 2) = 0)

/-- The block of labels the point `t` reads. -/
abbrev lblk (c : Dev nD) (t : Fin cfg1.N) : Vec Ideal S8x1024 .i32 := iblk1 V c 0 t
/-- The table of flags as the point `t` reads it. -/
abbrev tblk (c : Dev nD) (t : Fin cfg1.N) : Vec Ideal S1x512 .f32 := iblk1 V c 1 t
/-- The image of labels the region is entered with. -/
abbrev larr (c : Dev nD) : Vec Ideal S16384x1024 .i32 := V c main_v0
/-- The table of flags the region is entered with. -/
abbrev tbl (c : Dev nD) : Vec Ideal S1x512 .f32 := V c main_v18

/-- The block of labels at point `t` is the image read where the result's block `t` sits: both windows are at block
    `(t, 0)`, so a coordinate inside the block lands on the same pixel. -/
theorem lblk_apply (c : Dev nD) (t : Fin cfg1.N) (y : S8x1024.Idx) :
    lblk V c t y = larr V c (((cfg1.win 2).blk t).view.emb y) := by
  obtain ⟨e0, e1, e2, e3, -, -⟩ := idx_facts t
  show V c main_v0 (((cfg1.win 0).blk t).view.emb y) = V c main_v0 (((cfg1.win 2).blk t).view.emb y)
  have h : ((cfg1.win 0).blk t).view.emb y = ((cfg1.win 2).blk t).view.emb y := by
    funext a; apply Fin.ext
    match a with
    | ⟨0, _⟩ => show win1_0.index t (0 : Fin 2) * 8 + 1 * (y 0).val = win1_2.index t (0 : Fin 2) * 8 + 1 * (y 0).val; rw [e0, e2]
    | ⟨1, _⟩ => show win1_0.index t (1 : Fin 2) * 1024 + 1 * (y 1).val = win1_2.index t (1 : Fin 2) * 1024 + 1 * (y 1).val; rw [e1, e3]
  rw [h]

/-- The table's window has the one block `(0, 0)`, of the table's own size: every point reads the whole table. -/
theorem tblk_eq (c : Dev nD) (t : Fin cfg1.N) : tblk V c t = tbl V c := by
  obtain ⟨-, -, -, -, e4, e5⟩ := idx_facts t
  funext y
  show V c main_v18 (((cfg1.win 1).blk t).view.emb y) = V c main_v18 y
  have h : ((cfg1.win 1).blk t).view.emb y = y := by
    funext a; apply Fin.ext
    match a with
    | ⟨0, _⟩ => show win1_1.index t (0 : Fin 2) * 1 + 1 * (y 0).val = (y 0).val; rw [e4]; omega
    | ⟨1, _⟩ => show win1_1.index t (1 : Fin 2) * 512 + 1 * (y 1).val = (y 1).val; rw [e5]; omega
  rw [h]

/-- What point `t` writes back is block `t` of the filtered image: the body's result on the point's block of labels
    and the table, and the block of labels sits in the image exactly where the result block goes. -/
theorem flushed_eq (c : Dev nD) (t : Fin cfg1.N) :
    (dat1 (F := Ideal) V c).flushed 2 t
      = ((cfg1.win 2).blk t).view.read (Elt Ideal) (fun j => Cert.Spec.selF (tbl V c) (larr V c j)) := by
  show (cfg1.win 2).cut (grid1.coords t) ((dat1 V c).after 2 t) = _
  rw [after1_2]
  funext y
  show out1_2 (F := Ideal) (lblk V c t) (tblk V c t) y = Cert.Spec.selF (tbl V c) (larr V c (((cfg1.win 2).blk t).view.emb y))
  rw [Cert.KernelIdeal.FilterBody.out_filter (lblk V c t) (tblk V c t), tblk_eq V c t]
  show Cert.Spec.selF (tbl V c) (lblk V c t y) = _
  rw [lblk_apply V c t y]

/-- An index of the image is in point `t`'s block iff each coordinate is in the block's range on its axis. -/
theorem mem_blk (t : Fin cfg1.N) (i : S16384x1024.Idx) :
    i ∈ ((cfg1.win 2).blk t).view.set ↔ ∀ a : Fin 2, win1_2.index t a * S8x1024.size a ≤ (i a).val ∧ (i a).val < win1_2.index t a * S8x1024.size a + S8x1024.size a := by
  show i ∈ ((View.whole main_v19).slice (win1_2.rect t)).set ↔ _
  rw [View.set_slice_whole, Rect.mem_set_unit]
  exact Iff.rfl

/-- Every pixel is in the block of the point its row's eighth names, and that point writes back. -/
theorem cover (i : S16384x1024.Idx) :
    ∃ t : Fin cfg1.N, (cfg1.win 2).flush t = true ∧ i ∈ ((cfg1.win 2).blk t).view.set := by
  have hi0 : (i 0).val < 16384 := (i 0).isLt
  have hi1 : (i 1).val < 1024 := (i 1).isLt
  have hN : cfg1.N = 2048 := rfl
  let t : Fin cfg1.N := ⟨(i 0).val / 8, by rw [hN]; omega⟩
  obtain ⟨-, -, e2, e3, -, -⟩ := idx_facts t
  have et : t.val = (i 0).val / 8 := rfl
  refine ⟨t, flush1_2 t, ?_⟩
  rw [mem_blk]
  intro a
  match a with
  | ⟨0, _⟩ => show win1_2.index t (0 : Fin 2) * 8 ≤ (i 0).val ∧ (i 0).val < win1_2.index t (0 : Fin 2) * 8 + 8; rw [e2, et]; omega
  | ⟨1, _⟩ => show win1_2.index t (1 : Fin 2) * 1024 ≤ (i 1).val ∧ (i 1).val < win1_2.index t (1 : Fin 2) * 1024 + 1024; rw [e3]; omega

/-- After the filter's region its result array holds, at every pixel, the filter of that pixel's label through the
    table of flags the region was entered with: block `t` of the result is written back at point `t`, the blocks tile
    the array, and every block is the same function of the array index. -/
theorem arr_filter (c : Dev nD) :
    (dat1 (F := Ideal) V c).arrAt 2 cfg1.N = fun j => Cert.Spec.selF (V c main_v18) (V c main_v0 j) :=
  (dat1 (F := Ideal) V c).arrAt_eq_of_cover 2 (fun j => Cert.Spec.selF (tbl V c) (larr V c j))
    (fun t _ => flushed_eq V c t) cover

end Cert.KernelIdeal.FilterArr

end
-- ==== Proof.SumRows.lean ====
import proofs.«408821_j36876589203621_3_alg».proof.Proof.Spec
import Idealize.ShloMosaic.Lib.Pipeline.Value
import Idealize.ShloMosaic.PureOps.Ideal.Laws

noncomputable section

open scoped BigOperators
open Idealize.ShloMosaic Idealize.ShloMosaic.ValueIdx

namespace Cert.Spec

namespace SumRows

/-- Every row of the image is `8 t + b` for exactly one block `t` and one position `b`: the quotient and the remainder
    of the row number by eight. -/
def rowEquiv : Fin 2048 × Fin 8 ≃ Fin 16384 where
  toFun p := rowOf p.1 p.2
  invFun r := (⟨r.val / 8, by have := r.isLt; omega⟩, ⟨r.val % 8, Nat.mod_lt _ (by decide)⟩)
  left_inv p := by
    obtain ⟨t, b⟩ := p
    have ht := t.isLt
    have hb := b.isLt
    refine Prod.ext (Fin.ext ?_) (Fin.ext ?_)
    · show (8 * t.val + b.val) / 8 = t.val
      omega
    · show (8 * t.val + b.val) % 8 = b.val
      omega
  right_inv r := Fin.ext (by
    show 8 * (r.val / 8) + r.val % 8 = r.val
    omega)

/-- A sum over positions and blocks of a function of the row `8 t + b` is the sum over all rows. -/
theorem sum_rowOf {M : Type*} [AddCommMonoid M] (g : Fin 16384 → M) :
    ∑ b : Fin 8, ∑ t : Fin 2048, g (rowOf t b) = ∑ r : Fin 16384, g r := by
  rw [Finset.sum_comm]
  exact (Fintype.sum_prod_type' (fun t b => g (rowOf t b))).symm.trans (Equiv.sum_comp rowEquiv g)

/-- The 32-bit pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- A word whose signed value lies in `[0, 512)` has that value as its unsigned value. -/
theorem toNat_of_range (w : BitVec 32) (h0 : 0 ≤ w.toInt) (h1 : w.toInt < 512) :
    w.toInt = (w.toNat : Int) ∧ w.toNat < 512 := by
  have h2 := BitVec.toInt_eq_toNat_cond w
  have h3 := w.isLt
  split_ifs at h2 <;> omega

/-- The one-hot sum of a word inside the table picks the table's entry at the word: the indicator is one at the label
    the word spells and zero at every other label. -/
theorem onehot_sum (tbl : TabRow.Idx → EReal) (w : BitVec 32) (hw : w.toNat < 512) :
    ∑ l : Fin 512, ind w l.val * tbl (ix2 (0 : Fin 1) l) = tbl (ix2 (0 : Fin 1) (⟨w.toNat, hw⟩ : Fin 512)) := by
  rw [Finset.sum_eq_single (⟨w.toNat, hw⟩ : Fin 512)]
  · have : ind w w.toNat = 1 := by
      unfold ind
      rw [if_pos]
      apply BitVec.eq_of_toNat_eq
      rw [BitVec.toNat_ofNat]
      have := w.isLt
      omega
    rw [this, one_mul]
  · intro l _ hl
    have : ind w l.val = 0 := by
      unfold ind
      rw [if_neg]
      intro he
      apply hl
      apply Fin.ext
      show l.val = w.toNat
      rw [he, BitVec.toNat_ofNat]
      have := l.isLt
      omega
    rw [this, zero_mul]
  · intro hn
    exact absurd (Finset.mem_univ _) hn

/-- A one-bit flag stored as a number is zero or one, and exactly one is above one half: comparing the number with one
    half gives the flag back. -/
theorem cmp_flag_half (b : BitVec 1) :
    FloatOps.cmpf (F := Ideal) .ogt (FloatOps.uitofp (F := Ideal) .f32 b) (Ideal.ofBits .f32 0x3F000000#32) = b := by
  rw [ofBits_half_f32, Ideal.cmpf_def]
  show BitVec.ofBool (decide ((((1 : ℝ) / 2 : ℝ) : EReal) < ((b.toNat : ℝ) : EReal))) = b
  rcases BitVec.eq_zero_or_eq_one b with rfl | rfl
  · have h : ¬ ((((1 : ℝ) / 2 : ℝ) : EReal) < (((0#1).toNat : ℝ) : EReal)) := by
      rw [EReal.coe_lt_coe_iff]
      norm_num
    rw [decide_eq_false h]
    rfl
  · have h : (((1 : ℝ) / 2 : ℝ) : EReal) < (((1#1).toNat : ℝ) : EReal) := by
      rw [EReal.coe_lt_coe_iff]
      norm_num
    rw [decide_eq_true h]
    rfl

end SumRows

/-- The eight partial totals of a label add up to its total over the image as rows: every row is `8 t + b` for exactly
    one block `t` and one position `b`. -/
theorem sum_rows (lab : Img2.Idx → BitVec 32) (x : Img2.Idx → EReal) (l : Fin 512) :
    ∑ b : Fin 8, rowsSum lab x b l = totSum lab x l.val := by
  unfold rowsSum totSum
  exact (SumRows.sum_rowOf (fun r => ∑ cc : Fin 1024, ind (lab (ix2 r cc)) l.val * x (ix2 r cc))).trans
    (sum_idx2 (fun i => ind (lab i) l.val * x i)).symm

/-- The same for the counts. -/
theorem cnt_rows (lab : Img2.Idx → BitVec 32) (l : Fin 512) :
    ∑ b : Fin 8, rowsCnt lab b l = totCnt lab l.val := by
  unfold rowsCnt totCnt
  exact (SumRows.sum_rowOf (fun r => ∑ cc : Fin 1024, ind (lab (ix2 r cc)) l.val)).trans
    (sum_idx2 (fun i => ind (lab i) l.val)).symm

/-- A reshape re-indexes the pixels one to one, so the total of a label over the reshaped images is its total over the
    images. -/
theorem totSum_shapeCast {s t : Shape} (h : s.ShapeCasts t) (lab : s.Idx → BitVec 32) (x : s.Idx → EReal) (l : Nat) :
    totSum (shapeCast t lab h) (shapeCast t x h) l = totSum lab x l := by
  unfold totSum shapeCast
  exact Equiv.sum_comp (Shape.reshapeEquiv h) (fun i => ind (lab i) l * x i)

/-- The same for the counts. -/
theorem totCnt_shapeCast {s t : Shape} (h : s.ShapeCasts t) (lab : s.Idx → BitVec 32) (l : Nat) :
    totCnt (shapeCast t lab h) l = totCnt lab l := by
  unfold totCnt shapeCast
  exact Equiv.sum_comp (Shape.reshapeEquiv h) (fun i => ind (lab i) l)

/-- On a label inside the table the kernel's filter is the filter through the flags: the one-hot sum picks the one
    entry of the label, a flag stored as a number is zero or one, and exactly one is above one half. -/
theorem selF_eq_selB (bd : Tab.Idx → BitVec 1) (w : BitVec 32) (h0 : 0 ≤ w.toInt) (h1 : w.toInt < 512) :
    selF (fun j => FloatOps.uitofp (F := Ideal) .f32 (bd (ix1 (j 1)))) w = selB bd w := by
  obtain ⟨hi, hw⟩ := SumRows.toNat_of_range w h0 h1
  have hk : (⟨min w.toInt.toNat 511, by omega⟩ : Fin 512) = ⟨w.toNat, hw⟩ := Fin.ext (by
    show min w.toInt.toNat 511 = w.toNat
    rw [hi, Int.toNat_natCast]
    omega)
  calc selF (fun j => FloatOps.uitofp (F := Ideal) .f32 (bd (ix1 (j 1)))) w
      = Scalar.select (FloatOps.cmpf (F := Ideal) .ogt
          (FloatOps.uitofp (F := Ideal) .f32 (bd (ix1 (⟨w.toNat, hw⟩ : Fin 512)))) (Ideal.ofBits .f32 0x3F000000#32)) 0#32 w :=
        congrArg (fun S => Scalar.select (FloatOps.cmpf (F := Ideal) .ogt S (Ideal.ofBits .f32 0x3F000000#32)) 0#32 w)
          (SumRows.onehot_sum (fun j => FloatOps.uitofp (F := Ideal) .f32 (bd (ix1 (j 1)))) w hw)
    _ = Scalar.select (bd (ix1 (⟨w.toNat, hw⟩ : Fin 512))) 0#32 w :=
        congrArg (fun c => Scalar.select c 0#32 w) (SumRows.cmp_flag_half _)
    _ = selB bd w := congrArg (fun k : Fin 512 => Scalar.select (bd (ix1 k)) 0#32 w) hk.symm

end Cert.Spec

end
-- ==== Proof.KernelClosed.lean ====
/-
  The kernel's result in closed form: at every pixel, the kernel's filter of the pixel's label through the flags — as
  numbers — of the per-label totals and counts of the launched images.
  The eight partial totals region 0 leaves add up, under the host's fold over the row positions, to the total over the
  image as rows, which is the total over the image (a reshape re-indexes the pixels one to one); region 1 filters the
  label rows, which are the launched labels reshaped, and the last reshape undoes that.
-/
import proofs.«408821_j36876589203621_3_alg».proof.Proof.KernelValue
import proofs.«408821_j36876589203621_3_alg».proof.Proof.StatsAcc
import proofs.«408821_j36876589203621_3_alg».proof.Proof.FilterArr
import proofs.«408821_j36876589203621_3_alg».proof.Proof.SumRows
import Idealize.ShloMosaic.PureOps.Ideal.Laws
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KClosed

open Cert.KernelIdeal Cert.KernelIdeal.Gen Cert.KernelIdeal.KValue

variable (m : (ℓ : Loc nD τ sig) → Buf (Elt Ideal) ℓ) (ρ : Dev nD → PrngReg)

/-- The launched label image. -/
abbrev lab (c : Dev nD) : S16x1024x1024.Idx → BitVec 32 := m ((c : Thread nD τ).loc main_arg0)
/-- The launched intensity image. -/
abbrev inten (c : Dev nD) : S16x1024x1024.Idx → EReal := m ((c : Thread nD τ).loc main_arg1)

/-- The host's fold of region 0's partial totals over the row positions is the table of totals of the launched
    images. -/
theorem fold_sum (c : Dev nD) :
    Host.reduceAdd (F := Ideal) ((dat0 (F := Ideal) (V1 m ρ) c).arrAt 2 cfg0.N) (constant S_ .f32 0x00000000#32) reducesTo_S8x512_S512_d0 h_S_
      = fun (l : S512.Idx) => Cert.Spec.totSum (lab m c) (inten m c) (l 0).val := by
  rw [Cert.KernelIdeal.StatsAcc.arr_sum (V1 m ρ) c]
  funext l
  show Ideal.hostReduceAdd reducesTo_S8x512_S512_d0 _ _ l = _
  rw [Ideal.hostReduceAdd_single reducesTo_S8x512_S512_d0 (by decide : S8x512.Reduces [0] S512)]
  rw [show constant (F := Ideal) S_ .f32 (0x00000000#32) (Shape.Idx.first h_S_) = 0 from Ideal.ofBits_zero_f32, zero_add]
  refine (Cert.Spec.sum_rows (V1 m ρ c main_v0) (V1 m ρ c main_v1) (l 0)).trans ?_
  rw [V1_v0, V1_v1]
  exact Cert.Spec.totSum_shapeCast _ _ _ _

/-- The same for the counts. -/
theorem fold_cnt (c : Dev nD) :
    Host.reduceAdd (F := Ideal) ((dat0 (F := Ideal) (V1 m ρ) c).arrAt 3 cfg0.N) (constant S_ .f32 0x00000000#32) reducesTo_S8x512_S512_d0 h_S_
      = fun (l : S512.Idx) => Cert.Spec.totCnt (lab m c) (l 0).val := by
  rw [Cert.KernelIdeal.StatsAcc.arr_cnt (V1 m ρ) c]
  funext l
  show Ideal.hostReduceAdd reducesTo_S8x512_S512_d0 _ _ l = _
  rw [Ideal.hostReduceAdd_single reducesTo_S8x512_S512_d0 (by decide : S8x512.Reduces [0] S512)]
  rw [show constant (F := Ideal) S_ .f32 (0x00000000#32) (Shape.Idx.first h_S_) = 0 from Ideal.ofBits_zero_f32, zero_add]
  refine (Cert.Spec.cnt_rows (V1 m ρ c main_v0) (l 0)).trans ?_
  rw [V1_v0]
  exact Cert.Spec.totCnt_shapeCast _ _ _

/-- The table of flags region 1 is entered with, as numbers: the flags of the totals and counts of the launched images,
    one entry per label. -/
theorem table_eq (c : Dev nD) : (V3 m ρ c main_v18 : S1x512.Idx → EReal)
    = fun j => FloatOps.uitofp (F := Ideal) .f32 (Cert.Spec.flags (F := Ideal) bcast_S_S512
        (fun (l : S512.Idx) => Cert.Spec.totSum (lab m c) (inten m c) (l 0).val)
        (fun (l : S512.Idx) => Cert.Spec.totCnt (lab m c) (l 0).val) (ix1 (j 1))) := by
  rw [V3_v18, fold_sum, fold_cnt]
  funext j
  obtain ⟨u, q, rfl⟩ : ∃ (u : Fin 1) (q : Fin 512), j = ix2 u q := ⟨j 0, j 1, eq_ix2 j⟩
  exact shapeCast_a_1a_apply _ _ u q

/-- Filtering the label rows and reshaping back is filtering the label image: the rows are the image reshaped, and the
    two reshapes undo each other. -/
theorem filt_round (T : S1x512.Idx → EReal) (L2 : S16384x1024.Idx → BitVec 32) (L3 : S16x1024x1024.Idx → BitVec 32)
    (hL : L2 = shapeCast S16384x1024 L3 shapeCasts_S16x1024x1024_S16384x1024) :
    shapeCast S16x1024x1024 (fun j => Cert.Spec.selF T (L2 j)) shapeCasts_S16384x1024_S16x1024x1024
      = fun i => Cert.Spec.selF T (L3 i) := by
  subst hL
  exact shapeCast_shapeCast (fun i => Cert.Spec.selF T (L3 i)) shapeCasts_S16x1024x1024_S16384x1024 shapeCasts_S16384x1024_S16x1024x1024

/-- THE KERNEL'S RESULT: at every pixel the kernel's filter of the launched label through that table. -/
theorem out_selF (c : Dev nD) : (W5 m ρ c (Proc.devRef .tc main_v20) : S16x1024x1024.Idx → BitVec 32)
    = fun i => Cert.Spec.selF (fun j => FloatOps.uitofp (F := Ideal) .f32 (Cert.Spec.flags (F := Ideal) bcast_S_S512
        (fun (l : S512.Idx) => Cert.Spec.totSum (lab m c) (inten m c) (l 0).val)
        (fun (l : S512.Idx) => Cert.Spec.totCnt (lab m c) (l 0).val) (ix1 (j 1)))) (lab m c i) :=
  (W5_v20 m ρ c).trans <|
  (congrArg (fun (A : S16384x1024.Idx → BitVec 32) => shapeCast S16x1024x1024 A shapeCasts_S16384x1024_S16x1024x1024)
    (Cert.KernelIdeal.FilterArr.arr_filter (V3 m ρ) c)).trans <|
  (congrArg (fun (T : S1x512.Idx → EReal) => shapeCast S16x1024x1024 (fun j => Cert.Spec.selF T (V3 m ρ c main_v0 j)) shapeCasts_S16384x1024_S16x1024x1024)
    (table_eq m ρ c)).trans <|
  filt_round _ _ _ ((V3_v0 m ρ c).trans (V1_v0 m ρ c))

/-- Under the stated range of labels: the filter through the flags themselves. -/
theorem out_selB (c : Dev nD) (hr : ∀ i, 0 ≤ (lab m c i).toInt ∧ (lab m c i).toInt < 512) :
    (W5 m ρ c (Proc.devRef .tc main_v20) : S16x1024x1024.Idx → BitVec 32)
    = fun i => Cert.Spec.selB (Cert.Spec.flags (F := Ideal) bcast_S_S512
        (fun (l : S512.Idx) => Cert.Spec.totSum (lab m c) (inten m c) (l 0).val)
        (fun (l : S512.Idx) => Cert.Spec.totCnt (lab m c) (l 0).val)) (lab m c i) := by
  rw [out_selF]
  funext i
  exact Cert.Spec.selF_eq_selB _ _ (hr i).1 (hr i).2

end Cert.KernelIdeal.KClosed

end
-- ==== Proof.RefStats.lean ====
import proofs.«408821_j36876589203621_3_alg».proof.Proof.Spec
import proofs.«408821_j36876589203621_3_alg».proof.Proof.Gen.ReferenceIdeal.Read
import proofs.«408821_j36876589203621_3_alg».proof.Proof.SumRows
import Idealize.ShloMosaic.Lib.Pipeline.Value
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.RefStats

open Cert.ReferenceIdeal Cert.ReferenceIdeal.Gen Cert.ReferenceIdeal.Read

/-! ## Where an update of the segment sum lands

The scatter-add has a table of 512 entries as operand, one start index per pixel (the scatter indices are the flat
labels as a column, the index vector along the second axis) and one update per pixel, with no window axes: the one
operand axis is inserted and is the axis the start index names. So update `n` lands at the label of pixel `n`, read
signed, when that is inside the table, and nowhere otherwise. -/

/-- The segment sums' dimension numbers. -/
abbrev dS : ScatterDims S512 S16777216x1 S16777216 := scatter_S512_S16777216x1_S16777216_n_0_0_1

/-- The start of update `n`'s window on the table's axis: the entry `(n, 0)` of the scatter indices, read signed. -/
theorem start_eq (n : S16777216.Idx) (idx : IVec S16777216x1 32) (a : Fin S512.rank) :
    dS.start n idx a = (idx (ix2 (n 0) (0 : Fin 1))).toInt := by
  obtain rfl : a = 0 := Subsingleton.elim _ _
  unfold ScatterDims.start
  rw [dif_pos (show (0 : Fin 1) ∈ dS.scatterDimsToOperandDims from List.mem_singleton.mpr rfl)]
  have hsi : dS.siIdx n ⟨List.idxOf (0 : Fin 1) dS.scatterDimsToOperandDims,
      List.idxOf_lt_length_iff.2 (List.mem_singleton.mpr rfl)⟩ = ix2 (n 0) (0 : Fin 1) := by
    funext b; refine Fin.ext ?_
    match b with
    | ⟨0, _⟩ => rfl
    | ⟨1, _⟩ => rfl
  rw [hsi]
  rfl

/-- The table's axis is an inserted one: no window coordinate is added on it. -/
theorem window_eq (n : S16777216.Idx) (a : Fin S512.rank) : dS.window n a = 0 := by
  obtain rfl : a = 0 := Subsingleton.elim _ _
  unfold ScatterDims.window
  rw [dif_neg (by decide)]

/-- Update `n` lands at entry `l` of the table exactly when the scatter index `(n, 0)`, read signed, is `l`. -/
theorem resultIdx_iff (n : S16777216.Idx) (idx : IVec S16777216x1 32) (l : Fin 512) :
    dS.resultIdx? n idx = some (ix1 l) ↔ (idx (ix2 (n 0) (0 : Fin 1))).toInt = (l.val : Int) := by
  unfold ScatterDims.resultIdx?
  simp only [start_eq, window_eq]
  constructor
  · intro h
    split at h
    · rename_i hc
      have h0 : ((idx (ix2 (n 0) (0 : Fin 1))).toInt + ((0 : Nat) : Int)).toNat = l.val :=
        congrArg (fun f => (f (0 : Fin 1)).val) (Option.some.inj h)
      have hc0 : 0 ≤ (idx (ix2 (n 0) (0 : Fin 1))).toInt + ((0 : Nat) : Int)
          ∧ (idx (ix2 (n 0) (0 : Fin 1))).toInt + ((0 : Nat) : Int) < (512 : Int) := hc 0
      omega
    · exact absurd h (by simp)
  · intro h
    have hl := l.isLt
    rw [dif_pos (by intro a; obtain rfl : a = 0 := Subsingleton.elim _ _; show 0 ≤ _ ∧ _ < (512 : Int); omega)]
    congr 1
    funext a
    obtain rfl : a = 0 := Subsingleton.elim _ _
    refine Fin.ext ?_
    show (_ : Int).toNat = l.val
    omega

/-- A word whose signed value is a label below 512 is the word of that label. -/
theorem toInt_eq_iff (w : BitVec 32) (l : Fin 512) : w.toInt = (l.val : Int) ↔ w = BitVec.ofNat 32 l.val := by
  have hl := l.isLt
  constructor
  · intro h
    apply BitVec.eq_of_toInt_eq
    rw [h, StableHlo.Predicate.toInt_ofNat_small _ (by omega)]
  · intro h
    rw [h, StableHlo.Predicate.toInt_ofNat_small _ (by omega)]

/-! ## The scatter-add read at a label -/

/-- The scatter indices of the first segment sum: entry `(n, 0)` is the flat label array at `n`. -/
theorem v3_read (x0 : IVec S16x1024x1024 32) (n : S16777216.Idx) :
    val_main_v3 (F := Ideal) x0 (ix2 (n 0) (0 : Fin 1)) = val_main_v0 (F := Ideal) x0 n := by
  rw [val_main_v3_apply]
  congr 1
  funext a
  match a with
  | ⟨0, _⟩ => rfl

/-- The same for the second segment sum. -/
theorem v7_read (x0 : IVec S16x1024x1024 32) (n : S16777216.Idx) :
    val_main_v7 (F := Ideal) x0 (ix2 (n 0) (0 : Fin 1)) = val_main_v0 (F := Ideal) x0 n := by
  rw [val_main_v7_apply]
  congr 1
  funext a
  match a with
  | ⟨0, _⟩ => rfl

/-- THE SCATTER-ADD AT ENTRY `l`: the operand there plus the sum over all updates of the indicator "the label of the
    update is `l`" times the update. The sum over the updates landing at `l` is the sum over all updates of the
    update or zero; an update lands at `l` when its label read signed is `l`, which for `l < 512` says the label is
    the word of `l`. -/
theorem scatter_read (z : FVec Ideal S512 .f32) (lab : IVec S16777216 32) (idx : IVec S16777216x1 32)
    (upd : FVec Ideal S16777216 .f32) (hidx : ∀ n : S16777216.Idx, idx (ix2 (n 0) (0 : Fin 1)) = lab n) (l : Fin 512) :
    Host.scatterAdd dS z idx upd (ix1 l) = z (ix1 l) + ∑ n : S16777216.Idx, Cert.Spec.ind (lab n) l.val * upd n := by
  unfold Host.scatterAdd
  rw [Ideal.hostScatterAdd_def]
  unfold Ideal.hostScatterAdd
  show z (ix1 l) + _ = z (ix1 l) + _
  refine congrArg (z (ix1 l) + ·) ?_
  rw [Finset.sum_filter]
  refine Finset.sum_congr rfl (fun n _ => ?_)
  have hiff : dS.resultIdx? n idx = some (ix1 l) ↔ lab n = BitVec.ofNat 32 l.val := by
    rw [resultIdx_iff, hidx, toInt_eq_iff]
  unfold Cert.Spec.ind
  by_cases h : lab n = BitVec.ofNat 32 l.val
  · rw [if_pos (hiff.mpr h), if_pos h, one_mul]
  · rw [if_neg (fun hh => h (hiff.mp hh)), if_neg h, zero_mul]

/-- The pattern of 1.0 denotes one. -/
theorem ofBits_one_f32 : Ideal.ofBits .f32 0x3F800000#32 = 1 :=
  IdealRules.sign_bit.ideal_onePat .f32

/-- The reference's scatter-add of the intensities at the labels, read at label `l`: the zero it starts from plus the
    intensities of the pixels whose label, read signed, is `l` — an update whose label is outside the table is dropped —,
    which over the flat image and then over the three-axis image is the total of label `l`. -/
theorem ref_sum (x0 : IVec S16x1024x1024 32) (x1 : FVec Ideal S16x1024x1024 .f32) (l : Fin 512) :
    val_main_v4 (F := Ideal) x0 x1 (ix1 l) = Cert.Spec.totSum x0 x1 l.val := by
  unfold val_main_v4
  rw [scatter_read (val_main_v2 (F := Ideal)) (val_main_v0 (F := Ideal) x0) _ _ (v3_read x0) l]
  rw [val_main_v2_apply, val_main_cst_apply]
  show Ideal.ofBits .f32 0x00000000#32 + _ = _
  rw [Ideal.ofBits_zero_f32, zero_add]
  exact Cert.Spec.totSum_shapeCast shapeCasts_S16x1024x1024_S16777216 x0 x1 l.val

/-- The reference's scatter-add of ones at the labels, read at label `l`: the count of label `l`. -/
theorem ref_cnt (x0 : IVec S16x1024x1024 32) (l : Fin 512) :
    val_main_v8 (F := Ideal) x0 (ix1 l) = Cert.Spec.totCnt x0 l.val := by
  unfold val_main_v8
  rw [scatter_read (val_main_v6 (F := Ideal)) (val_main_v0 (F := Ideal) x0) _ _ (v7_read x0) l]
  rw [val_main_v6_apply, val_main_cst_1_apply]
  show Ideal.ofBits .f32 0x00000000#32 + _ = _
  rw [Ideal.ofBits_zero_f32, zero_add]
  have h5 : ∀ n : S16777216.Idx, val_main_v5 (F := Ideal) n = 1 := by
    intro n
    rw [val_main_v5_apply, val_main_cst_0_apply]
    exact ofBits_one_f32
  simp only [h5, mul_one]
  exact Cert.Spec.totCnt_shapeCast shapeCasts_S16x1024x1024_S16777216 x0 l.val

end Cert.ReferenceIdeal.RefStats

end
-- ==== Proof.RefFilter.lean ====
import proofs.«408821_j36876589203621_3_alg».proof.Proof.Spec
import proofs.«408821_j36876589203621_3_alg».proof.Proof.Gen.ReferenceIdeal.Read
import Idealize.ShloMosaic.Lib.Pipeline.Value
import Idealize.ShloMosaic.Lib.StableHlo.Predicate
import Idealize.ShloMosaic.Lib.ReduceAll
import proofs.«408821_j36876589203621_3_alg».proof.Pre_finite_inputs
import proofs.«408821_j36876589203621_3_alg».proof.Proof.Gen.Pre_finite_inputs

noncomputable section

open Idealize.ShloMosaic Idealize.ShloMosaic.TcCoe Idealize.SL.Sem Idealize.ShloMosaic.ValueIdx

namespace Cert.ReferenceIdeal.RefFilter

open Cert.ReferenceIdeal Cert.ReferenceIdeal.Gen Cert.ReferenceIdeal.Read

/-- The start-indices index of a pixel: the pixel's coordinates, and 0 on the index vector's axis. -/
abbrev pixIdx (y : S16x1024x1024.Idx) : S16x1024x1024x1.Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The gather of the table of flags read at a pixel: the table at the pixel's start index, read signed and clamped
    into the table. -/
theorem gather_flag_apply {α : Type} {w : Nat} (x : S512.Idx → α) (idx : IVec S16x1024x1024x1 w) (y : S16x1024x1024.Idx) :
    Host.gather gather_S512_S16x1024x1024x1_S16x1024x1024_n_0_n_n_0_3_1 x idx y
      = x (ix1 (⟨min (idx (pixIdx y)).toInt.toNat 511, by omega⟩ : Fin 512)) := by
  unfold Host.gather
  congr 1
  funext a
  obtain rfl : a = 0 := Subsingleton.elim _ _
  refine Fin.ext ?_
  show gather_S512_S16x1024x1024x1_S16x1024x1024_n_0_n_n_0_3_1.start y idx 0
    + gather_S512_S16x1024x1024x1_S16x1024x1024_n_0_n_n_0_3_1.batchCoord y 0
    + gather_S512_S16x1024x1024x1_S16x1024x1024_n_0_n_n_0_3_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S512_S16x1024x1024x1_S16x1024x1024_n_0_n_n_0_3_1.startIndexMap from List.mem_singleton.mpr rfl)]
  have hsi : gather_S512_S16x1024x1024x1_S16x1024x1024_n_0_n_n_0_3_1.siIdx y
      ⟨List.idxOf (0 : Fin 1) gather_S512_S16x1024x1024x1_S16x1024x1024_n_0_n_n_0_3_1.startIndexMap,
      List.idxOf_lt_length_iff.2 (List.mem_singleton.mpr rfl)⟩ = pixIdx y := by
    funext b; refine Fin.ext ?_
    match b with
    | ⟨0, _⟩ => rfl
    | ⟨1, _⟩ => rfl
    | ⟨2, _⟩ => rfl
    | ⟨3, _⟩ => rfl
  rw [hsi]
  rfl

/-- The start-indices index of a pixel reads back the pixel through the broadcast's index map. -/
theorem idx_v26_pix (y : S16x1024x1024.Idx) : idx_main_v26 (pixIdx y) = y := by
  funext a
  match a with
  | ⟨0, _⟩ => rfl
  | ⟨1, _⟩ => rfl
  | ⟨2, _⟩ => rfl

/-- The signed comparison "less than zero" of a word that reads non-negative is the bit 0. -/
theorem slt_zero_of_nonneg (a : BitVec 32) (h : 0 ≤ a.toInt) : IntOp.cmpi .slt a 0#32 = 0#1 := by
  have hb : a.slt 0#32 = false := by
    rw [BitVec.slt_eq_decide, BitVec.toInt_zero]
    exact decide_eq_false (by omega)
  show BitVec.ofBool (a.slt 0#32) = 0#1
  rw [hb]; rfl

/-- The reference's result at a pixel whose label is inside the table: the gather reads the flag of that label (the
    wrap of a negative index and the clamp of the start index both leave a label inside the table alone), and the select
    puts zero where the flag is set and the label elsewhere. -/
theorem ref_out (x0 : IVec S16x1024x1024 32) (x1 : FVec Ideal S16x1024x1024 .f32) (i : S16x1024x1024.Idx)
    (h0 : 0 ≤ (x0 i).toInt) (h1 : (x0 i).toInt < 512) :
    val_main_v28 (F := Ideal) x0 x1 i = Cert.Spec.selB (val_main_v20 (F := Ideal) x0 x1) (x0 i) := by
  -- the wrapped label is the label: the test "label < 0" fails
  have hlab : val_main_v26 (F := Ideal) x0 (pixIdx i) = x0 i := by
    rw [val_main_v26_apply, idx_v26_pix, val_main_v25_apply, val_main_v22_apply, val_main_v21_apply, val_main_c_5_apply,
      slt_zero_of_nonneg _ h0, select_zero]
  rw [val_main_v28_apply, val_main_call0_v0_apply, val_main_c_7_apply]
  unfold val_main_v27
  rw [gather_flag_apply]
  unfold Cert.Spec.selB
  simp only [hlab]

/-- The stated precondition's second conjunct, decoded: every label is inside the table. -/
theorem range_of_pre [Cert.Pre_finite_inputs.Facts] (x0 : IVec Cert.Pre_finite_inputs.S16x1024x1024 32)
    (x1 : FVec Ideal Cert.Pre_finite_inputs.S16x1024x1024 .f32)
    (h : Cert.Pre_finite_inputs.fn (F := Ideal) x0 x1 = fun _ => 1#1) (i : Cert.Pre_finite_inputs.S16x1024x1024.Idx) :
    0 ≤ (x0 i).toInt ∧ (x0 i).toInt < 512 := by
  have h' := congrFun h ValueIdx.ix0
  dsimp only [Cert.Pre_finite_inputs.fn] at h'
  -- the conjunction of the two "all" reductions: the second is the range of the labels
  obtain ⟨_, h2⟩ := IntOp.andi_eq_one.1 h'
  haveI : Subsingleton Cert.Pre_finite_inputs.S_.Idx := ⟨fun a b => funext fun d => d.elim0⟩
  have h3 := Host.reduce_andi_all _ _ _ _ _ h2 i
  -- at the pixel: both comparison bits are 1
  obtain ⟨h4, h5⟩ := IntOp.andi_eq_one.1 h3
  have h4' : IntOp.cmpi .sge (x0 i) 0#32 = 1#1 := h4
  have h5' : IntOp.cmpi .slt (x0 i) 512#32 = 1#1 := h5
  constructor
  · have hb : (0#32).sle (x0 i) = true := (StableHlo.Predicate.ofBool_eq_one_iff _).1 h4'
    have := BitVec.sle_iff_toInt_le.1 hb
    rwa [BitVec.toInt_zero] at this
  · have hb : (x0 i).slt 512#32 = true := (StableHlo.Predicate.ofBool_eq_one_iff _).1 h5'
    have := BitVec.slt_iff_toInt_lt.1 hb
    have e : (512#32 : BitVec 32).toInt = 512 := by decide
    rwa [e] at this

end Cert.ReferenceIdeal.RefFilter

end
-- ==== Proof.RefClosed.lean ====
/-
  The reference's result in closed form: its flags are the chain of flags of the per-label totals and counts of the
  images (the two scatter-adds read label by label), and under the stated range of labels its result at a pixel is the
  filter of the pixel's label through those flags.
-/
import proofs.«408821_j36876589203621_3_alg».proof.Proof.Flags
import proofs.«408821_j36876589203621_3_alg».proof.Proof.RefStats
import proofs.«408821_j36876589203621_3_alg».proof.Proof.RefFilter

noncomputable section

open Idealize.ShloMosaic Idealize.ShloMosaic.TcCoe Idealize.SL.Sem Idealize.ShloMosaic.ValueIdx

namespace Cert.ReferenceIdeal.RClosed

open Cert.ReferenceIdeal Cert.ReferenceIdeal.Gen Cert.ReferenceIdeal.Read

/-- The reference's table of flags is the chain of flags of the totals and the counts. -/
theorem flags_eq (x0 : IVec S16x1024x1024 32) (x1 : FVec Ideal S16x1024x1024 .f32) :
    val_main_v20 (F := Ideal) x0 x1
      = Cert.Spec.flags (F := Ideal) bcast_S_S512 (fun (l : S512.Idx) => Cert.Spec.totSum x0 x1 (l 0).val) (fun (l : S512.Idx) => Cert.Spec.totCnt x0 (l 0).val) := by
  have h4 : val_main_v4 (F := Ideal) x0 x1 = fun (l : S512.Idx) => Cert.Spec.totSum x0 x1 (l 0).val :=
    funext fun l => by rw [eq_ix1 l]; exact Cert.ReferenceIdeal.RefStats.ref_sum x0 x1 (l 0)
  have h8 : val_main_v8 (F := Ideal) x0 = fun (l : S512.Idx) => Cert.Spec.totCnt x0 (l 0).val :=
    funext fun l => by rw [eq_ix1 l]; exact Cert.ReferenceIdeal.RefStats.ref_cnt x0 (l 0)
  unfold val_main_v20 val_main_v17 val_main_v14 val_main_v16 val_main_v11 val_main_v10
  rw [h4, h8]
  rfl

/-- Under the stated range of labels the reference's result is, pixel by pixel, the filter of the label through the
    flags of the totals and the counts. -/
theorem ref_closed (x0 : IVec S16x1024x1024 32) (x1 : FVec Ideal S16x1024x1024 .f32)
    (hr : ∀ i, 0 ≤ (x0 i).toInt ∧ (x0 i).toInt < 512) :
    val_main_v28 (F := Ideal) x0 x1
      = fun i => Cert.Spec.selB (Cert.Spec.flags (F := Ideal) bcast_S_S512 (fun (l : S512.Idx) => Cert.Spec.totSum x0 x1 (l 0).val)
          (fun (l : S512.Idx) => Cert.Spec.totCnt x0 (l 0).val)) (x0 i) := by
  funext i
  rw [Cert.ReferenceIdeal.RefFilter.ref_out x0 x1 i (hr i).1 (hr i).2, flags_eq]

end Cert.ReferenceIdeal.RClosed

end
-- ==== Proof.lean ====
/-
  The proof of `Cert.Claim`: a label-intensity filter. Both programs compute, for each of 512 labels, the total
  intensity and the number of the pixels carrying the label, flag a label (other than the background label zero) whose
  mean intensity lies outside three thousandths either way, and replace every pixel of a flagged label by zero.

  The reference scatters the intensities (and ones) to their labels and gathers the flags back at the labels. The kernel
  has no scatter and no gather: a first grid of 2048 blocks of eight rows compares every pixel's label with each label
  of four chunks of 128, multiplies the one-hot indicator by the intensity and sums along the row into a table of partial
  totals (eight row positions by 512 labels) carried from block to block; host operations fold the eight row positions;
  a second grid recovers each pixel's flag as the sum over the labels of the indicator times the flag stored as a
  number, and compares it with one half.

  Over the extended reals the indicator times an intensity is the intensity or zero, finite sums may be taken in any
  order, and every row is in exactly one block at exactly one position: the folded partial totals are the reference's
  scatter-add, label by label. The same chain of host operations on equal tables gives equal flags. A label inside the
  table (the stated range of labels: outside it the reference itself indexes out of range) has exactly one matching
  label, so the one-hot sum is the flag as zero or one, above one half exactly when the flag is set, and the
  reference's gather reads that same flag.

  The frames of the two kernel programs are the generated ones; the reference's is its generated run with the result
  dropped; the ideal pass rewrote nothing.
-/
import proofs.«408821_j36876589203621_3_alg».proof.Defs
import proofs.«408821_j36876589203621_3_alg».proof.Proof.Gen.Kernel
import proofs.«408821_j36876589203621_3_alg».proof.Proof.Gen.Kernel.Frame
import proofs.«408821_j36876589203621_3_alg».proof.Proof.Gen.KernelIdeal
import proofs.«408821_j36876589203621_3_alg».proof.Proof.Gen.KernelIdeal.Frame
import proofs.«408821_j36876589203621_3_alg».proof.Proof.Gen.ReferenceIdeal
import proofs.«408821_j36876589203621_3_alg».proof.Proof.Gen.ReferenceIdeal.Run
import proofs.«408821_j36876589203621_3_alg».proof.Proof.Gen.ReferenceIdeal.Read
import proofs.«408821_j36876589203621_3_alg».proof.Proof.Gen.Pre_finite_inputs
import proofs.«408821_j36876589203621_3_alg».proof.Proof.KernelRun
import proofs.«408821_j36876589203621_3_alg».proof.Proof.KernelClosed
import proofs.«408821_j36876589203621_3_alg».proof.Proof.RefClosed
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_p : Cert.frame_Kernel := fun m ρ _ => Cert.Kernel.Gen.frame m ρ

/-- The idealized kernel likewise. -/
theorem frame_pi : Cert.frame_KernelIdeal := fun m ρ _ => Cert.KernelIdeal.Gen.frame m ρ

/-- The reference runs and leaves its arguments alone: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the images, and labels inside the table, both programs end with the filter of every
    pixel's label through the flags of the per-label totals and counts. -/
theorem algebraic : Cert.algebraic_KernelIdeal_ReferenceIdeal := by
  intro m ρ m' ρ' hpre hagree
  have hr : ∀ (c : Dev Cert.KernelIdeal.nD) i, 0 ≤ (Cert.KernelIdeal.KClosed.lab m c i).toInt ∧ (Cert.KernelIdeal.KClosed.lab m c i).toInt < 512 :=
    fun c i => Cert.ReferenceIdeal.RefFilter.range_of_pre _ _ (hpre c) i
  refine ⟨fun c => fun i => Cert.Spec.selB (Cert.Spec.flags (F := Ideal) Cert.KernelIdeal.Facts₀.bcast_S_S512
      (fun (l : Cert.KernelIdeal.S512.Idx) => Cert.Spec.totSum (Cert.KernelIdeal.KClosed.lab m c) (Cert.KernelIdeal.KClosed.inten m c) (l 0).val)
      (fun (l : Cert.KernelIdeal.S512.Idx) => Cert.Spec.totCnt (Cert.KernelIdeal.KClosed.lab m c) (l 0).val))
      (Cert.KernelIdeal.KClosed.lab m c i), ?_, ?_⟩
  · exact (θ_run Cert.KernelIdeal.defs _ _).mono
      (fun _ h c => ⟨(h c).1.trans (Cert.KernelIdeal.KClosed.out_selB m ρ c (hr c)), (h c).2.1, (h c).2.2⟩)
      (Cert.KernelIdeal.ValueRun.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2]
    exact Cert.ReferenceIdeal.RClosed.ref_closed _ _ (hr c)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
